-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S2x640000 : Shape := ⟨2, ![2, 640000]⟩
abbrev S40000 : Shape := ⟨1, ![40000]⟩
abbrev S256x128 : Shape := ⟨2, ![256, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S2x640000 : S_.BroadcastsInDim S2x640000 (![] : Fin 0 → Fin S2x640000.rank)
  reducesTo_S2x640000_S_d0_1 : S2x640000.ReducesTo [0, 1] S_

variable [Facts]

def fn_part4 {F : FTy → Type} [FloatOps F] (main_v63 : IVec S_ 1) (main_v65 : IVec S2x640000 1) (main_v67 : IVec S2x640000 1) : IVec S_ 1 :=
  let main_v68 : IVec S2x640000 1 := andi main_v65 main_v67
  let main_c_26 : IVec S_ 1 := constantI S_ 1 1#1
  let main_v69 : IVec S_ 1 := (fun x v => Host.reduce IntOp.andi x v reducesTo_S2x640000_S_d0_1 h_S_) main_v68 main_c_26
  let main_v70 : IVec S_ 1 := andi main_v63 main_v69
  main_v70

def fn_part3 {F : FTy → Type} [FloatOps F] (main_arg1 : IVec S2x640000 32) (main_arg13 : FVec F S128x512 .f32) (main_arg14 : FVec F S512 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x512 .f32 := Host.absf main_arg13
  let main_cst_20 : FVec F S_ .f32 := constant S_ .f32 0x7F800000#32
  let main_v55 : FVec F S128x512 .f32 := broadcastInDim S128x512 ![] bcast_S_S128x512 main_cst_20
  let main_v56 : IVec S128x512 1 := cmpf .olt main_v54 main_v55
  let main_c_21 : IVec S_ 1 := constantI S_ 1 1#1
  let main_v57 : IVec S_ 1 := (fun x v => Host.reduce IntOp.andi x v reducesTo_S128x512_S_d0_1 h_S_) main_v56 main_c_21
  let main_v58 : IVec S_ 1 := andi main_v53 main_v57
  let main_v59 : FVec F S512 .f32 := Host.absf main_arg14
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_c_24 : IVec S_ 32 := constantI S_ 32 0#32
  let main_v64 : IVec S2x640000 32 := broadcastInDim S2x640000 ![] bcast_S_S2x640000 main_c_24
  let main_v65 : IVec S2x640000 1 := cmpi .sge main_arg1 main_v64
  let main_c_25 : IVec S_ 32 := constantI S_ 32 40000#32
  let main_v66 : IVec S2x640000 32 := broadcastInDim S2x640000 ![] bcast_S_S2x640000 main_c_25
  let main_v67 : IVec S2x640000 1 := cmpi .slt main_arg1 main_v66
  fn_part4 (F := F) main_v63 main_v65 main_v67

def fn_part2 {F : FTy → Type} [FloatOps F] (main_arg1 : IVec S2x640000 32) (main_arg9 : FVec F S128x128 .f32) (main_arg10 : FVec F S128 .f32) (main_arg11 : FVec F S128x128 .f32) (main_arg12 : FVec F S128 .f32) (main_arg13 : FVec F S128x512 .f32) (main_arg14 : FVec F S512 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg1 main_arg13 main_arg14 main_v48 main_v49 main_v50

def fn_part1 {F : FTy → Type} [FloatOps F] (main_arg1 : IVec S2x640000 32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x512 .f32) (main_arg14 : FVec F S512 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_arg12 main_arg13 main_arg14 main_v33

def fn {F : FTy → Type} [FloatOps F] (main_arg0 : FVec F S40000x128 .f32) (main_arg1 : IVec S2x640000 32) (main_arg2 : IVec S40000 32) (main_arg3 : FVec F S256x128 .f32) (main_arg4 : FVec F S128 .f32) (main_arg5 : FVec F S128x128 .f32) (main_arg6 : FVec F S128 .f32) (main_arg7 : FVec F S256x128 .f32) (main_arg8 : FVec F S128 .f32) (main_arg9 : FVec F S128x128 .f32) (main_arg10 : FVec F S128 .f32) (main_arg11 : FVec F S128x128 .f32) (main_arg12 : FVec F S128 .f32) (main_arg13 : FVec F S128x512 .f32) (main_arg14 : FVec F S512 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg6 main_arg7 main_arg8 main_arg9 main_arg10 main_arg11 main_arg12 main_arg13 main_arg14 main_v13 main_v16
-- ==== Kernel.lean ====
abbrev S40000x128 : Shape := ⟨2, ![40000, 128]⟩
abbrev S2x640000 : Shape := ⟨2, ![2, 640000]⟩
abbrev S40000 : Shape := ⟨1, ![40000]⟩
abbrev S256x128 : Shape := ⟨2, ![256, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S1x128 : Shape := ⟨2, ![1, 128]⟩
abbrev S5000x128 : Shape := ⟨2, ![5000, 128]⟩
abbrev S5000x256 : Shape := ⟨2, ![5000, 256]⟩
abbrev S64x128 : Shape := ⟨2, ![64, 128]⟩
abbrev S40000x1 : Shape := ⟨2, ![40000, 1]⟩
abbrev S64 : Shape := ⟨1, ![64]⟩
abbrev S64x1 : Shape := ⟨2, ![64, 1]⟩
abbrev S64x512 : Shape := ⟨2, ![64, 512]⟩
abbrev S1x512 : Shape := ⟨2, ![1, 512]⟩
abbrev S64x8x64 : Shape := ⟨3, ![64, 8, 64]⟩

abbrev nBuf : Space → Nat
  | .hbm => 159
  | .vmem => 20
  | .smem => 0
  | _ => 0

abbrev hbmTy0_0 (i : Nat) : BufTy := match i % 128 with
  | 0 => ⟨S40000x128, .f32⟩
  | 1 => ⟨S2x640000, .i32⟩
  | 2 => ⟨S40000, .i32⟩
  | 3 => ⟨S256x128, .f32⟩
  | 4 => ⟨S128, .f32⟩
  | 5 => ⟨S128x128, .f32⟩
  | 6 => ⟨S128, .f32⟩
  | 7 => ⟨S256x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x512, .f32⟩
  | 14 => ⟨S512, .f32⟩
  | 15 => ⟨S1x640000, .i32⟩
  | 16 => ⟨S640000, .i32⟩
  | 17 => ⟨S1x640000, .i32⟩
  | 18 => ⟨S640000, .i32⟩
  | 19 => ⟨S_, .i32⟩
  | 20 => ⟨S640000, .i32⟩
  | 21 => ⟨S640000, .i1⟩
  | 22 => ⟨S_, .i32⟩
  | 23 => ⟨S640000, .i32⟩
  | 24 => ⟨S640000, .i32⟩
  | 25 => ⟨S640000, .i32⟩
  | 26 => ⟨S640000x1, .i32⟩
  | 27 => ⟨S1, .i32⟩
  | 28 => ⟨S_, .i32⟩
  | 29 => ⟨S640000x1, .i32⟩
  | 30 => ⟨S640000x1, .i1⟩
  | 31 => ⟨S1x1, .i32⟩
  | 32 => ⟨S640000x1, .i32⟩
  | 33 => ⟨S640000x1, .i1⟩
  | 34 => ⟨S640000x1, .i1⟩
  | 35 => ⟨S_, .i1⟩
  | 36 => ⟨S640000, .i1⟩
  | 37 => ⟨S640000x128, .f32⟩
  | 38 => ⟨S640000x128, .i1⟩
  | 39 => ⟨S_, .f32⟩
  | 40 => ⟨S640000x128, .f32⟩
  | 41 => ⟨S640000x128, .f32⟩
  | 42 => ⟨S_, .i32⟩
  | 43 => ⟨S640000, .i32⟩
  | 44 => ⟨S640000, .i1⟩
  | 45 => ⟨S_, .i32⟩
  | 46 => ⟨S640000, .i32⟩
  | 47 => ⟨S640000, .i32⟩
  | 48 => ⟨S640000, .i32⟩
  | 49 => ⟨S640000x1, .i32⟩
  | 50 => ⟨S1, .i32⟩
  | 51 => ⟨S_, .i32⟩
  | 52 => ⟨S640000x1, .i32⟩
  | 53 => ⟨S640000x1, .i1⟩
  | 54 => ⟨S1x1, .i32⟩
  | 55 => ⟨S640000x1, .i32⟩
  | 56 => ⟨S640000x1, .i1⟩
  | 57 => ⟨S640000x1, .i1⟩
  | 58 => ⟨S_, .i1⟩
  | 59 => ⟨S640000, .i1⟩
  | 60 => ⟨S640000x128, .f32⟩
  | 61 => ⟨S640000x128, .i1⟩
  | 62 => ⟨S_, .f32⟩
  | 63 => ⟨S640000x128, .f32⟩
  | 64 => ⟨S640000x128, .f32⟩
  | 65 => ⟨S1x128, .f32⟩
  | 66 => ⟨S1x128, .f32⟩
  | 67 => ⟨S640000x128, .f32⟩
  | 68 => ⟨S_, .f32⟩
  | 69 => ⟨S40000x128, .f32⟩
  | 70 => ⟨S640000x1, .i32⟩
  | 71 => ⟨S40000x128, .f32⟩
  | 72 => ⟨S_, .f32⟩
  | 73 => ⟨S40000x128, .f32⟩
  | 74 => ⟨S40000x128, .f32⟩
  | 75 => ⟨S_, .i32⟩
  | 76 => ⟨S640000, .i32⟩
  | 77 => ⟨S640000, .i1⟩
  | 78 => ⟨S_, .i32⟩
  | 79 => ⟨S640000, .i32⟩
  | 80 => ⟨S640000, .i32⟩
  | 81 => ⟨S640000, .i32⟩
  | 82 => ⟨S640000x1, .i32⟩
  | 83 => ⟨S1, .i32⟩
  | 84 => ⟨S_, .i32⟩
  | 85 => ⟨S640000x1, .i32⟩
  | 86 => ⟨S640000x1, .i1⟩
  | 87 => ⟨S1x1, .i32⟩
  | 88 => ⟨S640000x1, .i32⟩
  | 89 => ⟨S640000x1, .i1⟩
  | 90 => ⟨S640000x1, .i1⟩
  | 91 => ⟨S_, .i1⟩
  | 92 => ⟨S640000, .i1⟩
  | 93 => ⟨S640000x128, .f32⟩
  | 94 => ⟨S640000x128, .i1⟩
  | 95 => ⟨S_, .f32⟩
  | 96 => ⟨S640000x128, .f32⟩
  | 97 => ⟨S640000x128, .f32⟩
  | 98 => ⟨S_, .i32⟩
  | 99 => ⟨S640000, .i32⟩
  | 100 => ⟨S640000, .i1⟩
  | 101 => ⟨S_, .i32⟩
  | 102 => ⟨S640000, .i32⟩
  | 103 => ⟨S640000, .i32⟩
  | 104 => ⟨S640000, .i32⟩
  | 105 => ⟨S640000x1, .i32⟩
  | 106 => ⟨S1, .i32⟩
  | 107 => ⟨S_, .i32⟩
  | 108 => ⟨S640000x1, .i32⟩
  | 109 => ⟨S640000x1, .i1⟩
  | 110 => ⟨S1x1, .i32⟩
  | 111 => ⟨S640000x1, .i32⟩
  | 112 => ⟨S640000x1, .i1⟩
  | 113 => ⟨S640000x1, .i1⟩
  | 114 => ⟨S_, .i1⟩
  | 115 => ⟨S640000, .i1⟩
  | 116 => ⟨S640000x128, .f32⟩
  | 117 => ⟨S640000x128, .i1⟩
  | 118 => ⟨S_, .f32⟩
  | 119 => ⟨S640000x128, .f32⟩
  | 120 => ⟨S640000x128, .f32⟩
  | 121 => ⟨S1x128, .f32⟩
  | 122 => ⟨S1x128, .f32⟩
  | 123 => ⟨S640000x128, .f32⟩
  | 124 => ⟨S_, .f32⟩
  | 125 => ⟨S40000x128, .f32⟩
  | 126 => ⟨S640000x1, .i32⟩
  | 127 => ⟨S40000x128, .f32⟩
  | _ => ⟨S40000x128, .f32⟩

abbrev hbmTy0_1 (i : Nat) : BufTy := match i % 128 with
  | 0 => ⟨S_, .f32⟩
  | 1 => ⟨S40000x128, .f32⟩
  | 2 => ⟨S40000x128, .f32⟩
  | 3 => ⟨S_, .f32⟩
  | 4 => ⟨S64x128, .f32⟩
  | 5 => ⟨S40000x1, .i32⟩
  | 6 => ⟨S64x128, .f32⟩
  | 7 => ⟨S_, .f32⟩
  | 8 => ⟨S40000, .f32⟩
  | 9 => ⟨S_, .f32⟩
  | 10 => ⟨S64, .f32⟩
  | 11 => ⟨S40000x1, .i32⟩
  | 12 => ⟨S64, .f32⟩
  | 13 => ⟨S_, .f32⟩
  | 14 => ⟨S64, .f32⟩
  | 15 => ⟨S64, .f32⟩
  | 16 => ⟨S64x1, .f32⟩
  | 17 => ⟨S64x128, .f32⟩
  | 18 => ⟨S64x128, .f32⟩
  | 19 => ⟨S64x128, .f32⟩
  | 20 => ⟨S1x128, .f32⟩
  | 21 => ⟨S64x128, .f32⟩
  | 22 => ⟨S64x128, .f32⟩
  | 23 => ⟨S_, .f32⟩
  | 24 => ⟨S64x128, .f32⟩
  | 25 => ⟨S64x128, .f32⟩
  | 26 => ⟨S64x512, .f32⟩
  | 27 => ⟨S1x512, .f32⟩
  | 28 => ⟨S64x512, .f32⟩
  | 29 => ⟨S64x512, .f32⟩
  | 30 => ⟨S64x8x64, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S256x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S256x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_v8 : Ref sig .tc := ⟨.hbm, 67, rfl⟩
abbrev main_cst : Ref sig .tc := ⟨.hbm, 68, rfl⟩
abbrev main_v9 : Ref sig .tc := ⟨.hbm, 69, rfl⟩
abbrev main_v10 : Ref sig .tc := ⟨.hbm, 70, rfl⟩
abbrev main_v11 : Ref sig .tc := ⟨.hbm, 71, rfl⟩
abbrev main_call2_cst : Ref sig .tc := ⟨.hbm, 72, rfl⟩
abbrev main_call2_v0 : Ref sig .tc := ⟨.hbm, 73, rfl⟩
abbrev main_v12 : Ref sig .tc := ⟨.hbm, 74, rfl⟩
abbrev main_call3_c : Ref sig .tc := ⟨.hbm, 75, rfl⟩
abbrev main_call3_v0 : Ref sig .tc := ⟨.hbm, 76, rfl⟩
abbrev main_call3_v1 : Ref sig .tc := ⟨.hbm, 77, rfl⟩
abbrev main_call3_c_0 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_c_1 : Ref sig .tc := ⟨.hbm, 83, rfl⟩
abbrev main_call3_c_2 : Ref sig .tc := ⟨.hbm, 84, rfl⟩
abbrev main_call3_v6 : Ref sig .tc := ⟨.hbm, 85, rfl⟩
abbrev main_call3_v7 : Ref sig .tc := ⟨.hbm, 86, rfl⟩
abbrev main_call3_v8 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_3 : Ref sig .tc := ⟨.hbm, 91, rfl⟩
abbrev main_call3_v12 : Ref sig .tc := ⟨.hbm, 92, rfl⟩
abbrev main_call3_v13 : Ref sig .tc := ⟨.hbm, 93, rfl⟩
abbrev main_call3_v14 : Ref sig .tc := ⟨.hbm, 94, rfl⟩
abbrev main_call3_cst : Ref sig .tc := ⟨.hbm, 95, rfl⟩
abbrev main_call3_v15 : Ref sig .tc := ⟨.hbm, 96, rfl⟩
abbrev main_v13 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_call4_cst : Ref sig .tc := ⟨.hbm, 118, rfl⟩
abbrev main_call4_v15 : Ref sig .tc := ⟨.hbm, 119, rfl⟩
abbrev main_v14 : Ref sig .tc := ⟨.hbm, 120, rfl⟩
abbrev main_v15 : Ref sig .tc := ⟨.hbm, 121, rfl⟩
abbrev main_v16 : Ref sig .tc := ⟨.hbm, 122, rfl⟩
abbrev main_v17 : Ref sig .tc := ⟨.hbm, 123, rfl⟩
abbrev main_cst_0 : Ref sig .tc := ⟨.hbm, 124, rfl⟩
abbrev main_v18 : Ref sig .tc := ⟨.hbm, 125, rfl⟩
abbrev main_v19 : Ref sig .tc := ⟨.hbm, 126, rfl⟩
abbrev main_v20 : Ref sig .tc := ⟨.hbm, 127, rfl⟩
abbrev main_call5_cst : Ref sig .tc := ⟨.hbm, 128, rfl⟩
abbrev main_call5_v0 : Ref sig .tc := ⟨.hbm, 129, rfl⟩
abbrev main_v21 : Ref sig .tc := ⟨.hbm, 130, rfl⟩
abbrev main_cst_1 : Ref sig .tc := ⟨.hbm, 131, rfl⟩
abbrev main_v22 : Ref sig .tc := ⟨.hbm, 132, rfl⟩
abbrev main_v23 : Ref sig .tc := ⟨.hbm, 133, rfl⟩
abbrev main_v24 : Ref sig .tc := ⟨.hbm, 134, rfl⟩
abbrev main_cst_2 : Ref sig .tc := ⟨.hbm, 135, rfl⟩
abbrev main_v25 : Ref sig .tc := ⟨.hbm, 136, rfl⟩
abbrev main_cst_3 : Ref sig .tc := ⟨.hbm, 137, rfl⟩
abbrev main_v26 : Ref sig .tc := ⟨.hbm, 138, rfl⟩
abbrev main_v27 : Ref sig .tc := ⟨.hbm, 139, rfl⟩
abbrev main_v28 : Ref sig .tc := ⟨.hbm, 140, rfl⟩
abbrev main_cst_4 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_v42 : Ref sig .tc := ⟨.hbm, 157, rfl⟩
abbrev main_v43 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  concatenates_S5000x128_S5000x128_S5000x256_d1 : Shape.Concatenates [S5000x128, S5000x128] S5000x256 1
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  bcast_S_S40000x128 : S_.BroadcastsInDim S40000x128 (![] : Fin 0 → Fin S40000x128.rank)
  bcast_S_S64x128 : S_.BroadcastsInDim S64x128 (![] : Fin 0 → Fin S64x128.rank)
  bcast_S40000_S40000x1_0 : S40000.BroadcastsInDim S40000x1 (![0] : Fin 1 → Fin S40000x1.rank)
  bcast_S_S40000 : S_.BroadcastsInDim S40000 (![] : Fin 0 → Fin S40000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S128_S1x128_1 : S128.BroadcastsInDim S1x128 (![1] : Fin 1 → Fin S1x128.rank)
  bcast_S1x128_S64x128_0_1 : S1x128.BroadcastsInDim S64x128 (![0, 1] : Fin 2 → Fin S64x128.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  shapeCasts_S64x512_S64x8x64 : S64x512.ShapeCasts S64x8x64
  gather_S40000x128_S640000x1_S640000x128_1_0_n_n_0_1_1128_wf : GatherDims.WF S40000x128 S640000x1 S640000x128 [1] [0] [] [0] [] 1 ![1, 128]
  dot_S5000x256_S256x128_S5000x128_1_0_0_1_n_n_wf : DotDims.WF S5000x256 S256x128 S5000x128 [1] [0] [0] [1] [] []
  dot_S5000x128_S128x128_S5000x128_1_0_0_1_n_n_wf : DotDims.WF S5000x128 S128x128 S5000x128 [1] [0] [0] [1] [] []
  scatter_S40000x128_S640000x1_S640000x128_1_0_0_1_wf : ScatterDims.WF S40000x128 S640000x1 S640000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x128_S64x128_1_0_0_1_n_n_wf : DotDims.WF S64x128 S128x128 S64x128 [1] [0] [0] [1] [] []
  dot_S64x128_S128x512_S64x512_1_0_0_1_n_n_wf : DotDims.WF S64x128 S128x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S640000x128.size a
  hwx0_6 : ∀ i : grid0.Coords, EltTy.bits .f32 = 32 ∨ (Rect.block (s := S640000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S640000x128.size a
  hwx1_0 : ∀ i : grid1.Coords, EltTy.bits .f32 = 32 ∨ (Rect.block (s := S640000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S640000x128.size a
  hwx1_1 : ∀ i : grid1.Coords, EltTy.bits .f32 = 32 ∨ (Rect.block (s := S640000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x128.size a ≤ S256x128.size a
  hwx1_2 : ∀ i : grid1.Coords, EltTy.bits .f32 = 32 ∨ (Rect.block (s := S256x128) S256x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S640000x128.size a
  hwx1_6 : ∀ i : grid1.Coords, EltTy.bits .f32 = 32 ∨ (Rect.block (s := S640000x128) S5000x128.size (cc1_transform_6 i) (hinb1_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf

abbrev win0_0 : Pipeline.Window sig grid0 :=
  Pipeline.Window.ofSpec (Memref.whole main_v4) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S256x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S2x640000 : Shape := ⟨2, ![2, 640000]⟩
abbrev S40000 : Shape := ⟨1, ![40000]⟩
abbrev S256x128 : Shape := ⟨2, ![256, 128]⟩
abbrev S128 : Shape := ⟨1, ![128]⟩
abbrev S128x128 : Shape := ⟨2, ![128, 128]⟩
abbrev S128x512 : Shape := ⟨2, ![128, 512]⟩
abbrev S512 : Shape := ⟨1, ![512]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x256 : Shape := ⟨2, ![640000, 256]⟩
abbrev S1x128 : Shape := ⟨2, ![1, 128]⟩
abbrev S64x128 : Shape := ⟨2, ![64, 128]⟩
abbrev S40000x1 : Shape := ⟨2, ![40000, 1]⟩
abbrev S64 : Shape := ⟨1, ![64]⟩
abbrev S64x1 : Shape := ⟨2, ![64, 1]⟩
abbrev S64x512 : Shape := ⟨2, ![64, 512]⟩
abbrev S1x512 : Shape := ⟨2, ![1, 512]⟩
abbrev S64x8x64 : Shape := ⟨3, ![64, 8, 64]⟩

abbrev nBuf : Space → Nat
  | .hbm => 121
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S2x640000, .i32⟩
  | .hbm, ⟨2, _⟩ => ⟨S40000, .i32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x512, .f32⟩
  | .hbm, ⟨14, _⟩ => ⟨S512, .f32⟩
  | .hbm, ⟨15, _⟩ => ⟨S1x640000, .i32⟩
  | .hbm, ⟨16, _⟩ => ⟨S640000, .i32⟩
  | .hbm, ⟨17, _⟩ => ⟨S1x640000, .i32⟩
  | .hbm, ⟨18, _⟩ => ⟨S640000, .i32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S_, .i32⟩
  | .hbm, ⟨29, _⟩ => ⟨S640000, .i32⟩
  | .hbm, ⟨30, _⟩ => ⟨S640000, .i1⟩
  | .hbm, ⟨31, _⟩ => ⟨S_, .i32⟩
  | .hbm, ⟨32, _⟩ => ⟨S640000, .i32⟩
  | .hbm, ⟨33, _⟩ => ⟨S640000, .i32⟩
  | .hbm, ⟨34, _⟩ => ⟨S640000, .i32⟩
  | .hbm, ⟨35, _⟩ => ⟨S640000x1, .i32⟩
  | .hbm, ⟨36, _⟩ => ⟨S640000x128, .f32⟩
  | .hbm, ⟨37, _⟩ => ⟨S640000x256, .f32⟩
  | .hbm, ⟨38, _⟩ => ⟨S640000x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S640000x128, .f32⟩
  | .hbm, ⟨44, _⟩ => ⟨S640000x128, .f32⟩
  | .hbm, ⟨45, _⟩ => ⟨S640000x128, .f32⟩
  | .hbm, ⟨46, _⟩ => ⟨S1x128, .f32⟩
  | .hbm, ⟨47, _⟩ => ⟨S640000x128, .f32⟩
  | .hbm, ⟨48, _⟩ => ⟨S640000x128, .f32⟩
  | .hbm, ⟨49, _⟩ => ⟨S_, .f32⟩
  | .hbm, ⟨50, _⟩ => ⟨S40000x128, .f32⟩
  | .hbm, ⟨51, _⟩ => ⟨S640000x1, .i32⟩
  | .hbm, ⟨52, _⟩ => ⟨S40000x128, .f32⟩
  | .hbm, ⟨53, _⟩ => ⟨S_, .f32⟩
  | .hbm, ⟨54, _⟩ => ⟨S40000x128, .f32⟩
  | .hbm, ⟨55, _⟩ => ⟨S40000x128, .f32⟩
  | .hbm, ⟨56, _⟩ => ⟨S_, .i32⟩
  | .hbm, ⟨57, _⟩ => ⟨S640000, .i32⟩
  | .hbm, ⟨58, _⟩ => ⟨S640000, .i1⟩
  | .hbm, ⟨59, _⟩ => ⟨S_, .i32⟩
  | .hbm, ⟨60, _⟩ => ⟨S640000, .i32⟩
  | .hbm, ⟨61, _⟩ => ⟨S640000, .i32⟩
  | .hbm, ⟨62, _⟩ => ⟨S640000, .i32⟩
  | .hbm, ⟨63, _⟩ => ⟨S640000x1, .i32⟩
  | .hbm, ⟨64, _⟩ => ⟨S640000x128, .f32⟩
  | .hbm, ⟨65, _⟩ => ⟨S_, .i32⟩
  | .hbm, ⟨66, _⟩ => ⟨S640000, .i32⟩
  | .hbm, ⟨67, _⟩ => ⟨S640000, .i1⟩
  | .hbm, ⟨68, _⟩ => ⟨S_, .i32⟩
  | .hbm, ⟨69, _⟩ => ⟨S640000, .i32⟩
  | .hbm, ⟨70, _⟩ => ⟨S640000, .i32⟩
  | .hbm, ⟨71, _⟩ => ⟨S640000, .i32⟩
  | .hbm, ⟨72, _⟩ => ⟨S640000x1, .i32⟩
  | .hbm, ⟨73, _⟩ => ⟨S640000x128, .f32⟩
  | .hbm, ⟨74, _⟩ => ⟨S640000x256, .f32⟩
  | .hbm, ⟨75, _⟩ => ⟨S640000x128, .f32⟩
  | .hbm, ⟨76, _⟩ => ⟨S1x128, .f32⟩
  | .hbm, ⟨77, _⟩ => ⟨S640000x128, .f32⟩
  | .hbm, ⟨78, _⟩ => ⟨S640000x128, .f32⟩
  | .hbm, ⟨79, _⟩ => ⟨S_, .f32⟩
  | .hbm, ⟨80, _⟩ => ⟨S640000x128, .f32⟩
  | .hbm, ⟨81, _⟩ => ⟨S640000x128, .f32⟩
  | .hbm, ⟨82, _⟩ => ⟨S640000x128, .f32⟩
  | .hbm, ⟨83, _⟩ => ⟨S1x128, .f32⟩
  | .hbm, ⟨84, _⟩ => ⟨S640000x128, .f32⟩
  | .hbm, ⟨85, _⟩ => ⟨S640000x128, .f32⟩
  | .hbm, ⟨86, _⟩ => ⟨S_, .f32⟩
  | .hbm, ⟨87, _⟩ => ⟨S40000x128, .f32⟩
  | .hbm, ⟨88, _⟩ => ⟨S640000x1, .i32⟩
  | .hbm, ⟨89, _⟩ => ⟨S40000x128, .f32⟩
  | .hbm, ⟨90, _⟩ => ⟨S_, .f32⟩
  | .hbm, ⟨91, _⟩ => ⟨S40000x128, .f32⟩
  | .hbm, ⟨92, _⟩ => ⟨S40000x128, .f32⟩
  | .hbm, ⟨93, _⟩ => ⟨S_, .f32⟩
  | .hbm, ⟨94, _⟩ => ⟨S64x128, .f32⟩
  | .hbm, ⟨95, _⟩ => ⟨S40000x1, .i32⟩
  | .hbm, ⟨96, _⟩ => ⟨S64x128, .f32⟩
  | .hbm, ⟨97, _⟩ => ⟨S_, .f32⟩
  | .hbm, ⟨98, _⟩ => ⟨S40000, .f32⟩
  | .hbm, ⟨99, _⟩ => ⟨S_, .f32⟩
  | .hbm, ⟨100, _⟩ => ⟨S64, .f32⟩
  | .hbm, ⟨101, _⟩ => ⟨S40000x1, .i32⟩
  | .hbm, ⟨102, _⟩ => ⟨S64, .f32⟩
  | .hbm, ⟨103, _⟩ => ⟨S_, .f32⟩
  | .hbm, ⟨104, _⟩ => ⟨S64, .f32⟩
  | .hbm, ⟨105, _⟩ => ⟨S64, .f32⟩
  | .hbm, ⟨106, _⟩ => ⟨S64x1, .f32⟩
  | .hbm, ⟨107, _⟩ => ⟨S64x128, .f32⟩
  | .hbm, ⟨108, _⟩ => ⟨S64x128, .f32⟩
  | .hbm, ⟨109, _⟩ => ⟨S64x128, .f32⟩
  | .hbm, ⟨110, _⟩ => ⟨S1x128, .f32⟩
  | .hbm, ⟨111, _⟩ => ⟨S64x128, .f32⟩
  | .hbm, ⟨112, _⟩ => ⟨S64x128, .f32⟩
  | .hbm, ⟨113, _⟩ => ⟨S_, .f32⟩
  | .hbm, ⟨114, _⟩ => ⟨S64x128, .f32⟩
  | .hbm, ⟨115, _⟩ => ⟨S64x128, .f32⟩
  | .hbm, ⟨116, _⟩ => ⟨S64x512, .f32⟩
  | .hbm, ⟨117, _⟩ => ⟨S1x512, .f32⟩
  | .hbm, ⟨118, _⟩ => ⟨S64x512, .f32⟩
  | .hbm, ⟨119, _⟩ => ⟨S64x512, .f32⟩
  | .hbm, ⟨120, _⟩ => ⟨S64x8x64, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_call0_cst : Ref sig .tc := ⟨.hbm, 42, rfl⟩
abbrev main_call0_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_call1_cst : Ref sig .tc := ⟨.hbm, 53, rfl⟩
abbrev main_call1_v0 : Ref sig .tc := ⟨.hbm, 54, rfl⟩
abbrev main_v31 : Ref sig .tc := ⟨.hbm, 55, rfl⟩
abbrev main_c_3 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_c_5 : Ref sig .tc := ⟨.hbm, 65, rfl⟩
abbrev main_v39 : Ref sig .tc := ⟨.hbm, 66, rfl⟩
abbrev main_v40 : Ref sig .tc := ⟨.hbm, 67, rfl⟩
abbrev main_c_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_call2_cst : Ref sig .tc := ⟨.hbm, 79, rfl⟩
abbrev main_call2_v0 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_7 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_call3_cst : Ref sig .tc := ⟨.hbm, 90, rfl⟩
abbrev main_call3_v0 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_9 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_11 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_call4_cst : Ref sig .tc := ⟨.hbm, 113, rfl⟩
abbrev main_call4_v0 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x256_d1 : Shape.Concatenates [S640000x128, S640000x128] S640000x256 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  bcast_S_S64x128 : S_.BroadcastsInDim S64x128 (![] : Fin 0 → Fin S64x128.rank)
  bcast_S40000_S40000x1_0 : S40000.BroadcastsInDim S40000x1 (![0] : Fin 1 → Fin S40000x1.rank)
  bcast_S_S40000 : S_.BroadcastsInDim S40000 (![] : Fin 0 → Fin S40000.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  bcast_S512_S1x512_1 : S512.BroadcastsInDim S1x512 (![1] : Fin 1 → Fin S1x512.rank)
  bcast_S1x512_S64x512_0_1 : S1x512.BroadcastsInDim S64x512 (![0, 1] : Fin 2 → Fin S64x512.rank)
  shapeCasts_S64x512_S64x8x64 : S64x512.ShapeCasts S64x8x64
  gather_S40000x128_S640000x1_S640000x128_1_0_n_n_0_1_1128_wf : GatherDims.WF S40000x128 S640000x1 S640000x128 [1] [0] [] [0] [] 1 ![1, 128]
  dot_S640000x256_S256x128_S640000x128_1_0_0_1_n_n_wf : DotDims.WF S640000x256 S256x128 S640000x128 [1] [0] [0] [1] [] []
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S64x128_S40000x1_S40000x128_1_0_0_1_wf : ScatterDims.WF S64x128 S40000x1 S40000x128 [1] [0] [0] 1
  scatter_S64_S40000x1_S40000_n_0_0_1_wf : ScatterDims.WF S64 S40000x1 S40000 [] [0] [0] 1
  dot_S64x128_S128x128_S64x128_1_0_0_1_n_n_wf : DotDims.WF S64x128 S128x128 S64x128 [1] [0] [0] [1] [] []
  dot_S64x128_S128x512_S64x512_1_0_0_1_n_n_wf : DotDims.WF S64x128 S128x512 S64x512 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x256_S256x128_S640000x128_1_0_0_1_n_n : DotDims S640000x256 S256x128 S640000x128 where
  lhsContracting := [1]
  rhsContracting := [0]
  lhsNonContracting := [0]
  rhsNonContracting := [1]
  lhsBatch := []
  rhsBatch := []
  wf := dot_S640000x256_S256x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S64x128_S40000x1_S40000x128_1_0_0_1 : ScatterDims S64x128 S40000x1 S40000x128 where
  updateWindowDims := [1]
  insertedWindowDims := [0]
  scatterDimsToOperandDims := [0]
  indexVectorDim := 1
  wf := scatter_S64x128_S40000x1_S40000x128_1_0_0_1_wf
def scatter_S64_S40000x1_S40000_n_0_0_1 : ScatterDims S64 S40000x1 S40000 where
  updateWindowDims := []
  insertedWindowDims := [0]
  scatterDimsToOperandDims := [0]
  indexVectorDim := 1
  wf := scatter_S64_S40000x1_S40000_n_0_0_1_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S64x128_S128x512_S64x512_1_0_0_1_n_n : DotDims S64x128 S128x512 S64x512 where
  lhsContracting := [1]
  rhsContracting := [0]
  lhsNonContracting := [0]
  rhsNonContracting := [1]
  lhsBatch := []
  rhsBatch := []
  wf := dot_S64x128_S128x512_S64x512_1_0_0_1_n_n_wf

class Facts : Prop extends Facts₀ where

variable [Facts]
-- ==== Proof.MlpEntry.lean ====
/-
  One entry of the message perceptron's output, as a plain formula over the entries of its operands:
  row `e`, column `q` of  relu([xd | xs] · w1 + b1) · w2 + b2.
  The joined row `[xd | xs]` has 256 columns: the first 128 from `xd`, the last 128 from `xs`.
  The same formula serves a block of 5000 edges and the whole list of 640000: only the number of rows differs.
-/
import Idealize.ShloMosaic.PureOps.Ideal

noncomputable section

namespace Cert.Spec

/-- Column `l` of the joined row `e`: from `xd` below 128, from `xs` (128 less) from there on. -/
def joined {n : Nat} (xd xs : Fin n → Fin 128 → EReal) (e : Fin n) (l : Fin 256) : EReal :=
  if h : l.val < 128 then xd e ⟨l.val, h⟩ else xs e ⟨l.val - 128, by have := l.isLt; omega⟩

/-- Entry `(e, q)` of the perceptron's output. -/
def mlpEntry {n : Nat} (xd xs : Fin n → Fin 128 → EReal) (w1 : Fin 256 → Fin 128 → EReal) (b1 : Fin 128 → EReal)
    (w2 : Fin 128 → Fin 128 → EReal) (b2 : Fin 128 → EReal) (e : Fin n) (q : Fin 128) : EReal :=
  (∑ k : Fin 128, max ((∑ l : Fin 256, joined xd xs e l * w1 l k) + b1 k) 0 * w2 k q) + b2 q

end Cert.Spec

end
-- ==== Proof.BlockMlp.lean ====
/-
  The kernel body's arithmetic on one block of 5000 edges, read at one entry: the narrowing of the operands to
  a shorter float format is the identity on exact values, so the body is the same perceptron formula over the
  block's rows.
-/
import proofs.«409885_j70153995812874_1_alg».proof.Proof.Gen.KernelIdeal.Skeleton
import proofs.«409885_j70153995812874_1_alg».proof.Proof.MlpEntry
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx

/-! ## The first product's operand indices: rows by 256 columns times 256 rows by 128 columns -/

private theorem lhs_first_0 (i : S5000x128.Idx) (c : dot_S5000x256_S256x128_S5000x128_1_0_0_1_n_n.contr.Idx) :
    (dot_S5000x256_S256x128_S5000x128_1_0_0_1_n_n.lhsIdx i c 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
private theorem lhs_first_1 (i : S5000x128.Idx) (c : dot_S5000x256_S256x128_S5000x128_1_0_0_1_n_n.contr.Idx) :
    (dot_S5000x256_S256x128_S5000x128_1_0_0_1_n_n.lhsIdx i c 1).val = (c ⟨0, by decide⟩).val :=
  dot_S5000x256_S256x128_S5000x128_1_0_0_1_n_n.lhsIdx_val_of_single rfl i c
private theorem rhs_first_0 (i : S5000x128.Idx) (c : dot_S5000x256_S256x128_S5000x128_1_0_0_1_n_n.contr.Idx) :
    (dot_S5000x256_S256x128_S5000x128_1_0_0_1_n_n.rhsIdx i c 0).val = (c ⟨0, by decide⟩).val :=
  dot_S5000x256_S256x128_S5000x128_1_0_0_1_n_n.rhsIdx_val_of_single rfl i c
private theorem rhs_first_1 (i : S5000x128.Idx) (c : dot_S5000x256_S256x128_S5000x128_1_0_0_1_n_n.contr.Idx) :
    (dot_S5000x256_S256x128_S5000x128_1_0_0_1_n_n.rhsIdx i c 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The first product into the zero accumulator, at entry `(p, k)`: the sum over the 256 joined columns. -/
private theorem first_product_apply (a : FVec Ideal S5000x256 .bf16) (w : FVec Ideal S256x128 .bf16) (p : Fin 5000) (k : Fin 128) :
    matmul dot_S5000x256_S256x128_S5000x128_1_0_0_1_n_n none a w (constant (F := Ideal) S5000x128 .f32 0x00000000#32) (ix2 p k) =
      ∑ l : Fin 256, a (ix2 p l) * w (ix2 l k) := by
  refine (Ideal.matmul_constant_zero_apply dot_S5000x256_S256x128_S5000x128_1_0_0_1_n_n none a w (ix2 p k)).trans ?_
  rw [← Equiv.sum_comp (ValueIdx.contrEquiv1 dot_S5000x256_S256x128_S5000x128_1_0_0_1_n_n 256 rfl rfl).symm]
  refine Finset.sum_congr rfl fun l _ => ?_
  have hl := ValueIdx.contrEquiv1_symm_val dot_S5000x256_S256x128_S5000x128_1_0_0_1_n_n 256 rfl rfl l
  have el : dot_S5000x256_S256x128_S5000x128_1_0_0_1_n_n.lhsIdx (ix2 p k) ((ValueIdx.contrEquiv1 dot_S5000x256_S256x128_S5000x128_1_0_0_1_n_n 256 rfl rfl).symm l) = ix2 p l := funext fun x => Fin.ext (by
    match x with
    | ⟨0, _⟩ => exact lhs_first_0 _ _
    | ⟨1, _⟩ => exact (lhs_first_1 _ _).trans hl)
  have er : dot_S5000x256_S256x128_S5000x128_1_0_0_1_n_n.rhsIdx (ix2 p k) ((ValueIdx.contrEquiv1 dot_S5000x256_S256x128_S5000x128_1_0_0_1_n_n 256 rfl rfl).symm l) = ix2 l k := funext fun x => Fin.ext (by
    match x with
    | ⟨0, _⟩ => exact (rhs_first_0 _ _).trans hl
    | ⟨1, _⟩ => exact rhs_first_1 _ _)
  rw [el, er]

/-! ## The second product's operand indices: rows by 128 columns times 128 rows by 128 columns -/

private theorem lhs_second_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
private theorem lhs_second_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
private theorem rhs_second_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
private theorem rhs_second_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The second product into the zero accumulator, at entry `(p, q)`: the sum over the 128 hidden columns. -/
private theorem second_product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q) =
      ∑ k : Fin 128, a (ix2 p k) * w (ix2 k q) := by
  refine (Ideal.matmul_constant_zero_apply dot_S5000x128_S128x128_S5000x128_1_0_0_1_n_n none a w (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun x => Fin.ext (by
    match x with
    | ⟨0, _⟩ => exact lhs_second_0 _ _
    | ⟨1, _⟩ => exact (lhs_second_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun x => Fin.ext (by
    match x with
    | ⟨0, _⟩ => exact (rhs_second_0 _ _).trans hk
    | ⟨1, _⟩ => exact rhs_second_1 _ _)
  rw [el, er]

/-! ## The joined operand and the bias rows -/

/-- The two blocks joined along the columns, at `(p, l)`: the first block below column 128, the second (128 less) from there on. -/
private theorem joined_apply (a b : FVec Ideal S5000x128 .bf16) (p : Fin 5000) (l : Fin 256) :
    concatenate S5000x256 1 [⟨S5000x128, a⟩, ⟨S5000x128, b⟩] concatenates_S5000x128_S5000x128_S5000x256_d1 (ix2 p l) =
      Cert.Spec.joined (fun p l => a (ix2 p l)) (fun p l => b (ix2 p l)) p l := by
  unfold Cert.Spec.joined
  by_cases h : l.val < 128
  · rw [dif_pos h]
    refine concatenate_pair_apply_left (1 : Fin S5000x256.rank) a b concatenates_S5000x128_S5000x128_S5000x256_d1 (ix2 p l) rfl (ix2 p ⟨l.val, h⟩) (fun x => ?_)
    match x with
    | ⟨0, _⟩ => rfl
    | ⟨1, _⟩ => rfl
  · rw [dif_neg h]
    refine concatenate_pair_apply_right (1 : Fin S5000x256.rank) a b concatenates_S5000x128_S5000x128_S5000x256_d1 (ix2 p l) rfl rfl
      (ix2 p ⟨l.val - 128, by have := l.isLt; omega⟩) (fun x hx => ?_) ?_
    · match x with
      | ⟨0, _⟩ => rfl
      | ⟨1, _⟩ => exact absurd rfl hx
    · show (l.val - 128) + 128 = l.val
      omega

/-- A single row spread over the 5000 rows, at `(p, q)`: the row's column `q`. -/
private theorem row_spread_apply (b : FVec Ideal S1x128 .f32) (p : Fin 5000) (q : Fin 128) :
    broadcastTo S5000x128 b broadcasts_S1x128_S5000x128 (ix2 p q) = b (ix2 (0 : Fin 1) q) := by
  refine broadcastTo_apply b broadcasts_S1x128_S5000x128 (ix2 p q) (ix2 (0 : Fin 1) q) (fun x => ?_)
  match x with
  | ⟨0, _⟩ => show (0 : Nat) = if (1 : Nat) = 1 then 0 else p.val; rw [if_pos rfl]
  | ⟨1, _⟩ => show q.val = if (128 : Nat) = 1 then 0 else q.val; rw [if_neg (by decide)]

/-- Entry `(p, q)` of the first call's body on a block is the entry formula of the loaded blocks' entries. -/
theorem k0_pay1_apply (v0 v3 : Vec Ideal S5000x128 .f32) (v7 : Vec Ideal S256x128 .f32) (v9 : Vec Ideal S1x128 .f32)
    (v17 : Vec Ideal S128x128 .f32) (v19 : Vec Ideal S1x128 .f32) (p : Fin 5000) (q : Fin 128) :
    k0_pay1 (F := Ideal) v0 v3 v7 v9 v17 v19 (ix2 p q) =
      Cert.Spec.mlpEntry (fun p l => v0 (ix2 p l)) (fun p l => v3 (ix2 p l)) (fun l k => v7 (ix2 l k)) (fun k => v9 (ix2 (0 : Fin 1) k))
        (fun k q => v17 (ix2 k q)) (fun q => v19 (ix2 (0 : Fin 1) q)) p q := by
  unfold k0_pay1
  simp only [shapeCast_self]
  unfold Cert.Spec.mlpEntry
  -- the output layer: the second product plus its bias row
  refine (addf_apply _ _ _).trans ?_
  refine congrArg₂ (· + ·) ?_ (row_spread_apply v19 p q)
  refine (second_product_apply _ _ p q).trans ?_
  refine Finset.sum_congr rfl fun k _ => ?_
  refine congrArg₂ (· * ·) ?_ rfl
  -- the hidden layer at column k: the narrowing is the identity, the rectifier is the maximum with zero
  refine (truncf_apply (φ := .f32) (ψ := .bf16) _ bitsLt_bf16_f32 _).trans ?_
  refine (maximumf_apply _ _ _).trans ?_
  refine congrArg₂ max ?_ Ideal.ofBits_zero_f32
  refine (addf_apply _ _ _).trans ?_
  refine congrArg₂ (· + ·) ?_ (row_spread_apply v9 p k)
  refine (first_product_apply _ _ p k).trans ?_
  refine Finset.sum_congr rfl fun l _ => ?_
  refine congrArg₂ (· * ·) ?_ rfl
  -- the joined row: each half is its block, narrowed (the identity) after a cast to the same shape (the identity)
  refine (joined_apply _ _ p l).trans ?_
  rw [shapeCast_self v0 shapeCasts_S5000x128_S5000x128, shapeCast_self v3 shapeCasts_S5000x128_S5000x128]
  rfl

/-- The second call's body is the same arithmetic. -/
theorem k1_pay1_apply (v0 v3 : Vec Ideal S5000x128 .f32) (v7 : Vec Ideal S256x128 .f32) (v9 : Vec Ideal S1x128 .f32)
    (v17 : Vec Ideal S128x128 .f32) (v19 : Vec Ideal S1x128 .f32) (p : Fin 5000) (q : Fin 128) :
    k1_pay1 (F := Ideal) v0 v3 v7 v9 v17 v19 (ix2 p q) =
      Cert.Spec.mlpEntry (fun p l => v0 (ix2 p l)) (fun p l => v3 (ix2 p l)) (fun l k => v7 (ix2 l k)) (fun k => v9 (ix2 (0 : Fin 1) k))
        (fun k q => v17 (ix2 k q)) (fun q => v19 (ix2 (0 : Fin 1) q)) p q := by
  have same : k1_pay1 (F := Ideal) v0 v3 v7 v9 v17 v19 = k0_pay1 (F := Ideal) v0 v3 v7 v9 v17 v19 := rfl
  rw [same]
  exact k0_pay1_apply v0 v3 v7 v9 v17 v19 p q

end Cert.KernelIdeal.Block

end
-- ==== Proof.Spec.lean ====
/-
  The graph encoder as ONE function of its fifteen arguments, written the way the reference computes it:
  two rounds of message passing and a mean pool.  A round gathers, for every edge, the rows of the node
  features at the edge's target and source (an index below zero counts from the end, as numpy indexing
  does), feeds the two rows joined side by side through a two-layer perceptron with a rectifier between
  the layers, adds every edge's message into its target node's row, and rectifies.  The pool sums the node
  rows of each graph, divides by the graph's node count (at least one), and a last perceptron maps the 64
  pooled rows to 512 columns, regrouped as 8 x 64.
-/
import proofs.«409885_j70153995812874_1_alg».proof.Proof.Gen.ReferenceIdeal
import Idealize.ShloMosaic.PureOps.Ideal

noncomputable section

namespace Cert.Spec

open Cert.ReferenceIdeal Cert.ReferenceIdeal.Gen Idealize.ShloMosaic

variable {F : FTy → Type} [FloatOps F]

/-- Row 0 of the edge list: every edge's source node. -/
def srcOf (ei : IVec S2x640000 32) : IVec S640000 32 :=
  shapeCast _ (extractStridedSlice S1x640000 ![0, 0] ei slices_S2x640000_S1x640000_0_0) shapeCasts_S1x640000_S640000

/-- Row 1 of the edge list: every edge's target node. -/
def dstOf (ei : IVec S2x640000 32) : IVec S640000 32 :=
  shapeCast _ (extractStridedSlice S1x640000 ![1, 0] ei slices_S2x640000_S1x640000_1_0) shapeCasts_S1x640000_S640000

/-- A node index as the gather takes it: one below zero is counted from the end (40000 added), as a column. -/
def wrapIdx (i : IVec S640000 32) : IVec S640000x1 32 :=
  broadcastInDim S640000x1 ![0] bcast_S640000_S640000x1_0
    (select (cmpi .slt i (broadcastInDim S640000 ![] bcast_S_S640000 (constantI S_ 32 0#32)))
      (addi i (broadcastInDim S640000 ![] bcast_S_S640000 (constantI S_ 32 40000#32))) i)

/-- The node rows an index vector names, one row per edge. -/
def rowsOf (x : FVec F S40000x128 .f32) (i : IVec S640000 32) : FVec F S640000x128 .f32 :=
  Host.gather gather_S40000x128_S640000x1_S640000x128_1_0_n_n_0_1_1128 x (wrapIdx i)

/-- A bias vector as a one-row matrix. -/
def biasRow (b : FVec F S128 .f32) : FVec F S1x128 .f32 :=
  broadcastInDim S1x128 ![1] bcast_S128_S1x128_1 b

/-- The message perceptron on every edge at once: `relu([xd | xs] · w1 + b1) · w2 + b2`, the biases given as rows. -/
def edgeMlp (xd xs : FVec F S640000x128 .f32) (w1 : FVec F S256x128 .f32) (b1 : FVec F S1x128 .f32)
    (w2 : FVec F S128x128 .f32) (b2 : FVec F S1x128 .f32) : FVec F S640000x128 .f32 :=
  addf (Host.dotGeneral dot_S640000x128_S128x128_S640000x128_1_0_0_1_n_n none
      (maximumf (addf (Host.dotGeneral dot_S640000x256_S256x128_S640000x128_1_0_0_1_n_n none
            (concatenate S640000x256 1 [⟨S640000x128, xd⟩, ⟨S640000x128, xs⟩] concatenates_S640000x128_S640000x128_S640000x256_d1) w1)
          (broadcastInDim S640000x128 ![0, 1] bcast_S1x128_S640000x128_0_1 b1))
        (broadcastInDim S640000x128 ![] bcast_S_S640000x128 (constant S_ .f32 0x00000000#32))) w2)
    (broadcastInDim S640000x128 ![0, 1] bcast_S1x128_S640000x128_0_1 b2)

/-- Every edge's message added into its target node's row (from zero), then rectified. -/
def aggregate (dst : IVec S640000 32) (msg : FVec F S640000x128 .f32) : FVec F S40000x128 .f32 :=
  maximumf (Host.scatterAdd scatter_S40000x128_S640000x1_S640000x128_1_0_0_1
      (broadcastInDim S40000x128 ![] bcast_S_S40000x128 (constant S_ .f32 0x00000000#32))
      (broadcastInDim S640000x1 ![0] bcast_S640000_S640000x1_0 dst) msg)
    (broadcastInDim S40000x128 ![] bcast_S_S40000x128 (constant S_ .f32 0x00000000#32))

/-- One round of message passing over node features `x`. -/
def layer (x : FVec F S40000x128 .f32) (src dst : IVec S640000 32) (w1 : FVec F S256x128 .f32) (b1 : FVec F S128 .f32)
    (w2 : FVec F S128x128 .f32) (b2 : FVec F S128 .f32) : FVec F S40000x128 .f32 :=
  aggregate dst (edgeMlp (rowsOf x dst) (rowsOf x src) w1 (biasRow b1) w2 (biasRow b2))

/-- The mean pool over graphs and the output perceptron. -/
def head (h : FVec F S40000x128 .f32) (batch : IVec S40000 32) (wm1 : FVec F S128x128 .f32) (bm1 : FVec F S128 .f32)
    (wm2 : FVec F S128x512 .f32) (bm2 : FVec F S512 .f32) : FVec F S64x8x64 .f32 :=
  shapeCast _ (addf (Host.dotGeneral dot_S64x128_S128x512_S64x512_1_0_0_1_n_n none
      (maximumf (addf (Host.dotGeneral dot_S64x128_S128x128_S64x128_1_0_0_1_n_n none
            (Host.divf (Host.scatterAdd scatter_S64x128_S40000x1_S40000x128_1_0_0_1
                (broadcastInDim S64x128 ![] bcast_S_S64x128 (constant S_ .f32 0x00000000#32))
                (broadcastInDim S40000x1 ![0] bcast_S40000_S40000x1_0 batch) h)
              (broadcastInDim S64x128 ![0, 1] bcast_S64x1_S64x128_0_1 (broadcastInDim S64x1 ![0] bcast_S64_S64x1_0
                (maximumf (Host.scatterAdd scatter_S64_S40000x1_S40000_n_0_0_1
                    (broadcastInDim S64 ![] bcast_S_S64 (constant S_ .f32 0x00000000#32))
                    (broadcastInDim S40000x1 ![0] bcast_S40000_S40000x1_0 batch)
                    (broadcastInDim S40000 ![] bcast_S_S40000 (constant S_ .f32 0x3F800000#32)))
                  (broadcastInDim S64 ![] bcast_S_S64 (constant S_ .f32 0x3F800000#32)))))) wm1)
          (broadcastInDim S64x128 ![0, 1] bcast_S1x128_S64x128_0_1 (broadcastInDim S1x128 ![1] bcast_S128_S1x128_1 bm1)))
        (broadcastInDim S64x128 ![] bcast_S_S64x128 (constant S_ .f32 0x00000000#32))) wm2)
    (broadcastInDim S64x512 ![0, 1] bcast_S1x512_S64x512_0_1 (broadcastInDim S1x512 ![1] bcast_S512_S1x512_1 bm2))) shapeCasts_S64x512_S64x8x64

/-- The whole encoder. -/
def encoder (x : FVec F S40000x128 .f32) (ei : IVec S2x640000 32) (batch : IVec S40000 32)
    (w11 : FVec F S256x128 .f32) (b11 : FVec F S128 .f32) (w12 : FVec F S128x128 .f32) (b12 : FVec F S128 .f32)
    (w21 : FVec F S256x128 .f32) (b21 : FVec F S128 .f32) (w22 : FVec F S128x128 .f32) (b22 : FVec F S128 .f32)
    (wm1 : FVec F S128x128 .f32) (bm1 : FVec F S128 .f32) (wm2 : FVec F S128x512 .f32) (bm2 : FVec F S512 .f32) :
    FVec F S64x8x64 .f32 :=
  head (layer (layer x (srcOf ei) (dstOf ei) w11 b11 w12 b12) (srcOf ei) (dstOf ei) w21 b21 w22 b22) batch wm1 bm1 wm2 bm2

end Cert.Spec

end
-- ==== Proof.EdgeMlpApply.lean ====
/-
  The host's message perceptron read at one entry: the two matrix products are sums over the contracted
  column, the joined operand reads its left or right half, the bias rows are read at their one row, and the
  rectifier is the maximum with zero.
-/
import proofs.«409885_j70153995812874_1_alg».proof.Proof.Spec
import proofs.«409885_j70153995812874_1_alg».proof.Proof.MlpEntry
import Idealize.ShloMosaic.Lib.Pipeline.Value
import Idealize.ShloMosaic.Lib.ValueIdx
import Idealize.ShloMosaic.PureOps.Ideal.Laws

noncomputable section

namespace Cert.Spec

open Cert.ReferenceIdeal Cert.ReferenceIdeal.Gen Idealize.ShloMosaic Idealize.ShloMosaic.ValueIdx

/-! ## The first product: 256 joined columns against the 256 rows of the first weights

Where the product's dimension numbers send an output index and a contraction index, axis by axis. -/

private theorem first_left_row (i : S640000x128.Idx) (c : dot_S640000x256_S256x128_S640000x128_1_0_0_1_n_n.contr.Idx) :
    (dot_S640000x256_S256x128_S640000x128_1_0_0_1_n_n.lhsIdx i c 0).val = (i 0).val := by
  unfold DotDims.lhsIdx
  rw [dif_neg (show ¬(0 : Fin S640000x256.rank) ∈ dot_S640000x256_S256x128_S640000x128_1_0_0_1_n_n.lhsBatch by decide), dif_pos (show (0 : Fin S640000x256.rank) ∈ dot_S640000x256_S256x128_S640000x128_1_0_0_1_n_n.lhsNonContracting by decide)]
  rfl
private theorem first_left_col (i : S640000x128.Idx) (c : dot_S640000x256_S256x128_S640000x128_1_0_0_1_n_n.contr.Idx) :
    (dot_S640000x256_S256x128_S640000x128_1_0_0_1_n_n.lhsIdx i c 1).val = (c ⟨0, by decide⟩).val :=
  dot_S640000x256_S256x128_S640000x128_1_0_0_1_n_n.lhsIdx_val_of_single rfl i c
private theorem first_right_row (i : S640000x128.Idx) (c : dot_S640000x256_S256x128_S640000x128_1_0_0_1_n_n.contr.Idx) :
    (dot_S640000x256_S256x128_S640000x128_1_0_0_1_n_n.rhsIdx i c 0).val = (c ⟨0, by decide⟩).val :=
  dot_S640000x256_S256x128_S640000x128_1_0_0_1_n_n.rhsIdx_val_of_single rfl i c
private theorem first_right_col (i : S640000x128.Idx) (c : dot_S640000x256_S256x128_S640000x128_1_0_0_1_n_n.contr.Idx) :
    (dot_S640000x256_S256x128_S640000x128_1_0_0_1_n_n.rhsIdx i c 1).val = (i 1).val := by
  unfold DotDims.rhsIdx
  rw [dif_neg (show ¬(1 : Fin S256x128.rank) ∈ dot_S640000x256_S256x128_S640000x128_1_0_0_1_n_n.rhsBatch by decide), dif_pos (show (1 : Fin S256x128.rank) ∈ dot_S640000x256_S256x128_S640000x128_1_0_0_1_n_n.rhsNonContracting by decide)]
  rfl

/-- Entry `(e, q)` of the first product is the sum over the 256 joined columns `l` of row `e`, column `l` of the left operand times row `l`, column `q` of the weights. -/
private theorem firstProduct_apply (y : FVec Ideal S640000x256 .f32) (w : FVec Ideal S256x128 .f32) (e : Fin 640000) (q : Fin 128) :
    Host.dotGeneral (F := Ideal) dot_S640000x256_S256x128_S640000x128_1_0_0_1_n_n none y w (ix2 e q) = ∑ l : Fin 256, y (ix2 e l) * w (ix2 l q) := by
  simp only [Host.dotGeneral]
  rw [Ideal.dotGeneral_apply, ← Equiv.sum_comp (ValueIdx.contrEquiv1 dot_S640000x256_S256x128_S640000x128_1_0_0_1_n_n 256 rfl rfl).symm]
  refine Finset.sum_congr rfl fun l _ => ?_
  have hl := ValueIdx.contrEquiv1_symm_val dot_S640000x256_S256x128_S640000x128_1_0_0_1_n_n 256 rfl rfl l
  have el : dot_S640000x256_S256x128_S640000x128_1_0_0_1_n_n.lhsIdx (ix2 e q) ((ValueIdx.contrEquiv1 dot_S640000x256_S256x128_S640000x128_1_0_0_1_n_n 256 rfl rfl).symm l) = ix2 e l := funext fun a => Fin.ext (by
    match a with
    | ⟨0, _⟩ => exact first_left_row _ _
    | ⟨1, _⟩ => exact (first_left_col _ _).trans hl)
  have er : dot_S640000x256_S256x128_S640000x128_1_0_0_1_n_n.rhsIdx (ix2 e q) ((ValueIdx.contrEquiv1 dot_S640000x256_S256x128_S640000x128_1_0_0_1_n_n 256 rfl rfl).symm l) = ix2 l q := funext fun a => Fin.ext (by
    match a with
    | ⟨0, _⟩ => exact (first_right_row _ _).trans hl
    | ⟨1, _⟩ => exact first_right_col _ _)
  rw [el, er]

/-! ## The second product: 128 hidden columns against the 128 rows of the second weights -/

private theorem second_left_row (i : S640000x128.Idx) (c : dot_S640000x128_S128x128_S640000x128_1_0_0_1_n_n.contr.Idx) :
    (dot_S640000x128_S128x128_S640000x128_1_0_0_1_n_n.lhsIdx i c 0).val = (i 0).val := by
  unfold DotDims.lhsIdx
  rw [dif_neg (show ¬(0 : Fin S640000x128.rank) ∈ dot_S640000x128_S128x128_S640000x128_1_0_0_1_n_n.lhsBatch by decide), dif_pos (show (0 : Fin S640000x128.rank) ∈ dot_S640000x128_S128x128_S640000x128_1_0_0_1_n_n.lhsNonContracting by decide)]
  rfl
private theorem second_left_col (i : S640000x128.Idx) (c : dot_S640000x128_S128x128_S640000x128_1_0_0_1_n_n.contr.Idx) :
    (dot_S640000x128_S128x128_S640000x128_1_0_0_1_n_n.lhsIdx i c 1).val = (c ⟨0, by decide⟩).val :=
  dot_S640000x128_S128x128_S640000x128_1_0_0_1_n_n.lhsIdx_val_of_single rfl i c
private theorem second_right_row (i : S640000x128.Idx) (c : dot_S640000x128_S128x128_S640000x128_1_0_0_1_n_n.contr.Idx) :
    (dot_S640000x128_S128x128_S640000x128_1_0_0_1_n_n.rhsIdx i c 0).val = (c ⟨0, by decide⟩).val :=
  dot_S640000x128_S128x128_S640000x128_1_0_0_1_n_n.rhsIdx_val_of_single rfl i c
private theorem second_right_col (i : S640000x128.Idx) (c : dot_S640000x128_S128x128_S640000x128_1_0_0_1_n_n.contr.Idx) :
    (dot_S640000x128_S128x128_S640000x128_1_0_0_1_n_n.rhsIdx i c 1).val = (i 1).val := by
  unfold DotDims.rhsIdx
  rw [dif_neg (show ¬(1 : Fin S128x128.rank) ∈ dot_S640000x128_S128x128_S640000x128_1_0_0_1_n_n.rhsBatch by decide), dif_pos (show (1 : Fin S128x128.rank) ∈ dot_S640000x128_S128x128_S640000x128_1_0_0_1_n_n.rhsNonContracting by decide)]
  rfl

/-- Entry `(e, q)` of the second product is the sum over the 128 hidden columns `k` of row `e`, column `k` of the left operand times row `k`, column `q` of the weights. -/
private theorem secondProduct_apply (y : FVec Ideal S640000x128 .f32) (w : FVec Ideal S128x128 .f32) (e : Fin 640000) (q : Fin 128) :
    Host.dotGeneral (F := Ideal) dot_S640000x128_S128x128_S640000x128_1_0_0_1_n_n none y w (ix2 e q) = ∑ l : Fin 128, y (ix2 e l) * w (ix2 l q) := by
  simp only [Host.dotGeneral]
  rw [Ideal.dotGeneral_apply, ← Equiv.sum_comp (ValueIdx.contrEquiv1 dot_S640000x128_S128x128_S640000x128_1_0_0_1_n_n 128 rfl rfl).symm]
  refine Finset.sum_congr rfl fun l _ => ?_
  have hl := ValueIdx.contrEquiv1_symm_val dot_S640000x128_S128x128_S640000x128_1_0_0_1_n_n 128 rfl rfl l
  have el : dot_S640000x128_S128x128_S640000x128_1_0_0_1_n_n.lhsIdx (ix2 e q) ((ValueIdx.contrEquiv1 dot_S640000x128_S128x128_S640000x128_1_0_0_1_n_n 128 rfl rfl).symm l) = ix2 e l := funext fun a => Fin.ext (by
    match a with
    | ⟨0, _⟩ => exact second_left_row _ _
    | ⟨1, _⟩ => exact (second_left_col _ _).trans hl)
  have er : dot_S640000x128_S128x128_S640000x128_1_0_0_1_n_n.rhsIdx (ix2 e q) ((ValueIdx.contrEquiv1 dot_S640000x128_S128x128_S640000x128_1_0_0_1_n_n 128 rfl rfl).symm l) = ix2 l q := funext fun a => Fin.ext (by
    match a with
    | ⟨0, _⟩ => exact (second_right_row _ _).trans hl
    | ⟨1, _⟩ => exact second_right_col _ _)
  rw [el, er]

/-! ## The joined operand, the bias rows and the zero -/

/-- Column `l` of row `e` of `[xd | xs]` is `xd`'s column `l` below 128 and `xs`'s column `l - 128` from there on. -/
private theorem joinedOperand_apply (xd xs : FVec Ideal S640000x128 .f32) (e : Fin 640000) (l : Fin 256) :
    concatenate S640000x256 1 [⟨S640000x128, xd⟩, ⟨S640000x128, xs⟩] concatenates_S640000x128_S640000x128_S640000x256_d1 (ix2 e l) =
      joined (fun e l => xd (ix2 e l)) (fun e l => xs (ix2 e l)) e l := by
  unfold joined
  by_cases h : l.val < 128
  · rw [dif_pos h]
    exact concatenate_pair_apply_left 1 xd xs _ (ix2 e l) rfl (ix2 e ⟨l.val, h⟩) (fun b => match b with
      | ⟨0, _⟩ => rfl
      | ⟨1, _⟩ => rfl)
  · rw [dif_neg h]
    have hl := l.isLt
    exact concatenate_pair_apply_right 1 xd xs _ (ix2 e l) rfl rfl (ix2 e ⟨l.val - 128, by omega⟩) (fun b hb => match b, hb with
      | ⟨0, _⟩, _ => rfl
      | ⟨1, _⟩, hb => absurd rfl hb) (by show l.val - 128 + 128 = l.val; omega)

/-- A one-row bias spread over all edges reads, at `(e, q)`, its one row at column `q`. -/
private theorem spreadBias_apply (b : FVec Ideal S1x128 .f32) (e : Fin 640000) (q : Fin 128) :
    broadcastInDim S640000x128 ![0, 1] bcast_S1x128_S640000x128_0_1 b (ix2 e q) = b (ix2 (0 : Fin 1) q) :=
  broadcastInDim_apply _ bcast_S1x128_S640000x128_0_1 b (ix2 e q) (ix2 (0 : Fin 1) q) (fun a => match a with
    | ⟨0, _⟩ => by show 0 = if (1 : Nat) = 1 then 0 else e.val; rw [if_pos rfl]
    | ⟨1, _⟩ => by show q.val = if (128 : Nat) = 1 then 0 else q.val; rw [if_neg (by decide)])

/-- The spread zero constant reads `0` everywhere. -/
private theorem spreadZero_apply (e : Fin 640000) (q : Fin 128) :
    broadcastInDim S640000x128 ![] bcast_S_S640000x128 (constant (F := Ideal) S_ .f32 0x00000000#32) (ix2 e q) = (0 : EReal) := by
  rw [broadcastInDim_apply _ bcast_S_S640000x128 (constant (F := Ideal) S_ .f32 0x00000000#32) (ix2 e q) (fun a => a.elim0) (fun a => a.elim0),
    constant_apply, Ideal.ofBits_zero_f32]

/-! ## The perceptron -/

/-- Entry `(e, q)` of the perceptron over all 640000 edges is the entry formula of its operands' entries. -/
theorem edgeMlp_apply (xd xs : FVec Ideal S640000x128 .f32) (w1 : FVec Ideal S256x128 .f32) (b1 : FVec Ideal S1x128 .f32)
    (w2 : FVec Ideal S128x128 .f32) (b2 : FVec Ideal S1x128 .f32) (e : Fin 640000) (q : Fin 128) :
    edgeMlp (F := Ideal) xd xs w1 b1 w2 b2 (ix2 e q) =
      mlpEntry (fun e l => xd (ix2 e l)) (fun e l => xs (ix2 e l)) (fun l k => w1 (ix2 l k)) (fun k => b1 (ix2 (0 : Fin 1) k))
        (fun k q => w2 (ix2 k q)) (fun q => b2 (ix2 (0 : Fin 1) q)) e q := by
  unfold edgeMlp mlpEntry
  rw [addf_apply, secondProduct_apply, spreadBias_apply]
  refine congrArg (· + b2 (ix2 (0 : Fin 1) q)) (Finset.sum_congr rfl fun k _ => ?_)
  rw [maximumf_apply, addf_apply, firstProduct_apply, spreadBias_apply, spreadZero_apply]
  refine congrArg (fun s => max (s + b1 (ix2 (0 : Fin 1) k)) 0 * w2 (ix2 k q)) (Finset.sum_congr rfl fun l _ => ?_)
  rw [joinedOperand_apply]

end Cert.Spec

end
-- ==== Proof.Region0.lean ====
/-
  What pallas_call 0 leaves in its output array: grid point `t` writes rows `5000 t … 5000 t + 4999`, computed from
  the same rows of the two gathered operands and the whole weight and bias operands, and the 128 points' blocks
  tile the 640000 rows; so the array ends holding the host's perceptron of the operand arrays as the call found them.
-/
import proofs.«409885_j70153995812874_1_alg».proof.Proof.Gen.KernelIdeal.Frame
import proofs.«409885_j70153995812874_1_alg».proof.Proof.BlockMlp
import proofs.«409885_j70153995812874_1_alg».proof.Proof.EdgeMlpApply

set_option maxRecDepth 16384

noncomputable section

namespace Cert.KernelIdeal.Region0

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a rectangle that starts at the origin, as the constant zero. -/
private theorem origin : (![0, 0] : Fin 2 → Nat) = fun _ => 0 := funext fun a => by fin_cases a <;> rfl

/-- An entry of the perceptron reads its first two operands only in the entry's own row: two entries in the same
    column agree as soon as those rows agree, whatever the number of rows of either pair of operands. -/
private theorem mlpEntry_row_congr {n n' : Nat} (xd xs : Fin n → Fin 128 → EReal) (xd' xs' : Fin n' → Fin 128 → EReal)
    (w1 : Fin 256 → Fin 128 → EReal) (b1 : Fin 128 → EReal) (w2 : Fin 128 → Fin 128 → EReal) (b2 : Fin 128 → EReal)
    (e : Fin n) (e' : Fin n') (q : Fin 128) (hd : ∀ l, xd e l = xd' e' l) (hs : ∀ l, xs e l = xs' e' l) :
    Cert.Spec.mlpEntry xd xs w1 b1 w2 b2 e q = Cert.Spec.mlpEntry xd' xs' w1 b1 w2 b2 e' q := by
  have hj : ∀ l : Fin 256, Cert.Spec.joined xd xs e l = Cert.Spec.joined xd' xs' e' l := by
    intro l
    unfold Cert.Spec.joined
    split
    · exact hd _
    · exact hs _
  unfold Cert.Spec.mlpEntry
  simp only [hj]

/-- Where each window's block sits at grid point `t`: the two row operands and the output at row block `t`,
    column block 0; the weights and biases at block (0, 0). -/
private theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The body's arithmetic at entry `(p, q)` of a block is the host's perceptron at entry `(e, q)` of the arrays,
    when row `p` of the two row blocks is row `e` of the two row arrays and the other blocks are the other arrays. -/
private theorem body_entry (x0 x1 : Vec Ideal S5000x128 .f32) (x2 : Vec Ideal S256x128 .f32) (x3 : Vec Ideal S1x128 .f32)
    (x4 : Vec Ideal S128x128 .f32) (x5 : Vec Ideal S1x128 .f32)
    (xd xs : FVec Ideal S640000x128 .f32) (w1 : FVec Ideal S256x128 .f32) (b1 : FVec Ideal S1x128 .f32)
    (w2 : FVec Ideal S128x128 .f32) (b2 : FVec Ideal S1x128 .f32)
    (p : Fin 5000) (q : Fin 128) (e : Fin 640000)
    (h0 : ∀ l : Fin 128, x0 (ix2 p l) = xd (ix2 e l)) (h1 : ∀ l : Fin 128, x1 (ix2 p l) = xs (ix2 e l))
    (h2 : x2 = w1) (h3 : x3 = b1) (h4 : x4 = w2) (h5 : x5 = b2) :
    k0_pay1 (F := Ideal) x0 x1 x2 x3 x4 x5 (ix2 p q) = Cert.Spec.edgeMlp (F := Ideal) xd xs w1 b1 w2 b2 (ix2 e q) := by
  subst h2 h3 h4 h5
  rw [Cert.KernelIdeal.Block.k0_pay1_apply, Cert.Spec.edgeMlp_apply]
  exact mlpEntry_row_congr _ _ _ _ _ _ _ _ p e q h0 h1

/-- What grid point `t` writes back is rows `5000 t … 5000 t + 4999` of the host's perceptron of the operand arrays. -/
private theorem written_block (c : Dev nD) (t : Fin cfg0.N) :
    (dat0 (F := Ideal) V c).flushed 6 t = ((cfg0.win 6).blk t).view.read (Elt Ideal)
      (Cert.Spec.edgeMlp (F := Ideal) (V c main_v4) (V c main_v5) (V c main_arg3) (V c main_v6) (V c main_arg5) (V c main_v7)) := by
  show (cfg0.win 6).cut (grid0.coords t) ((dat0 V c).after 6 t) = _
  rw [after0_6]
  unfold out0_6
  rw [View.canon_unit_zero origin]
  simp only [View.ld_unit_zero (S := S5000x128) origin, View.ld_unit_zero (S := S256x128) origin,
    View.ld_unit_zero (S := S1x128) origin, View.ld_unit_zero (S := S128x128) origin]
  obtain ⟨a00, a01, a10, a11, a20, a21, a30, a31, a40, a41, a50, a51, a60, a61⟩ := block_index t
  have ht : t.val < 128 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  -- the row of the arrays under row `p` of the blocks at point `t`
  have he : 5000 * t.val + p.val < 640000 := by omega
  refine (body_entry _ _ _ _ _ _ (V c main_v4) (V c main_v5) (V c main_arg3) (V c main_v6) (V c main_arg5) (V c main_v7)
    p q ⟨5000 * t.val + p.val, he⟩ ?_ ?_ ?_ ?_ ?_ ?_).trans ?_
  · intro l
    show V c main_v4 (((cfg0.win 0).blk t).view.emb (ix2 p l)) = V c main_v4 (ix2 ⟨5000 * t.val + p.val, he⟩ l)
    refine congrArg _ ?_
    funext a; apply Fin.ext
    match a with
    | ⟨0, _⟩ => show win0_0.index t (0 : Fin 2) * 5000 + 1 * p.val = 5000 * t.val + p.val; omega
    | ⟨1, _⟩ => show win0_0.index t (1 : Fin 2) * 128 + 1 * l.val = l.val; omega
  · intro l
    show V c main_v5 (((cfg0.win 1).blk t).view.emb (ix2 p l)) = V c main_v5 (ix2 ⟨5000 * t.val + p.val, he⟩ l)
    refine congrArg _ ?_
    funext a; apply Fin.ext
    match a with
    | ⟨0, _⟩ => show win0_1.index t (0 : Fin 2) * 5000 + 1 * p.val = 5000 * t.val + p.val; omega
    | ⟨1, _⟩ => show win0_1.index t (1 : Fin 2) * 128 + 1 * l.val = l.val; omega
  · funext y
    show V c main_arg3 (((cfg0.win 2).blk t).view.emb y) = V c main_arg3 y
    refine congrArg _ ?_
    funext a; apply Fin.ext
    match a with
    | ⟨0, _⟩ => show win0_2.index t (0 : Fin 2) * 256 + 1 * (y 0).val = (y 0).val; omega
    | ⟨1, _⟩ => show win0_2.index t (1 : Fin 2) * 128 + 1 * (y 1).val = (y 1).val; omega
  · funext y
    show V c main_v6 (((cfg0.win 3).blk t).view.emb y) = V c main_v6 y
    refine congrArg _ ?_
    funext a; apply Fin.ext
    match a with
    | ⟨0, _⟩ => show win0_3.index t (0 : Fin 2) * 1 + 1 * (y 0).val = (y 0).val; omega
    | ⟨1, _⟩ => show win0_3.index t (1 : Fin 2) * 128 + 1 * (y 1).val = (y 1).val; omega
  · funext y
    show V c main_arg5 (((cfg0.win 4).blk t).view.emb y) = V c main_arg5 y
    refine congrArg _ ?_
    funext a; apply Fin.ext
    match a with
    | ⟨0, _⟩ => show win0_4.index t (0 : Fin 2) * 128 + 1 * (y 0).val = (y 0).val; omega
    | ⟨1, _⟩ => show win0_4.index t (1 : Fin 2) * 128 + 1 * (y 1).val = (y 1).val; omega
  · funext y
    show V c main_v7 (((cfg0.win 5).blk t).view.emb y) = V c main_v7 y
    refine congrArg _ ?_
    funext a; apply Fin.ext
    match a with
    | ⟨0, _⟩ => show win0_5.index t (0 : Fin 2) * 1 + 1 * (y 0).val = (y 0).val; omega
    | ⟨1, _⟩ => show win0_5.index t (1 : Fin 2) * 128 + 1 * (y 1).val = (y 1).val; omega
  · show Cert.Spec.edgeMlp (F := Ideal) (V c main_v4) (V c main_v5) (V c main_arg3) (V c main_v6) (V c main_arg5) (V c main_v7) _
      = Cert.Spec.edgeMlp (F := Ideal) (V c main_v4) (V c main_v5) (V c main_arg3) (V c main_v6) (V c main_arg5) (V c main_v7)
          (((cfg0.win 6).blk t).view.emb (ix2 p q))
    refine congrArg _ ?_
    funext a; apply Fin.ext
    match a with
    | ⟨0, _⟩ => show 5000 * t.val + p.val = win0_6.index t (0 : Fin 2) * 5000 + 1 * p.val; omega
    | ⟨1, _⟩ => show q.val = win0_6.index t (1 : Fin 2) * 128 + 1 * q.val; omega

/-- A row and column of the array lie in point `t`'s block iff each lies in the block's range on its axis. -/
private theorem mem_block (t : Fin cfg0.N) (i : S640000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v8).slice (win0_6.rect t)).set ↔ _
  rw [View.set_slice_whole, Rect.mem_set_unit]
  exact Iff.rfl

/-- The 128 blocks of 5000 rows tile the 640000 rows: row `r` is in the block of point `r / 5000`. -/
private theorem rows_covered (i : S640000x128.Idx) :
    ∃ t : Fin cfg0.N, (cfg0.win 6).flush t = true ∧ i ∈ ((cfg0.win 6).blk t).view.set := by
  have hi0 : (i 0).val < 640000 := (i 0).isLt
  have hi1 : (i 1).val < 128 := (i 1).isLt
  have hN : cfg0.N = 128 := N_0
  have ht : (i 0).val / 5000 < cfg0.N := lt_of_lt_of_eq (by omega) hN.symm
  obtain ⟨-, -, -, -, -, -, -, -, -, -, -, -, a60, a61⟩ := block_index ⟨(i 0).val / 5000, ht⟩
  have b60 : win0_6.index ⟨(i 0).val / 5000, ht⟩ (0 : Fin 2) = (i 0).val / 5000 := a60
  refine ⟨⟨(i 0).val / 5000, ht⟩, flush0_6 _, ?_⟩
  rw [mem_block]
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    omega
  | ⟨1, _⟩ =>
    show win0_6.index ⟨(i 0).val / 5000, ht⟩ (1 : Fin 2) * 128 ≤ (i 1).val
      ∧ (i 1).val < win0_6.index ⟨(i 0).val / 5000, ht⟩ (1 : Fin 2) * 128 + 128
    omega

/-- The output array of pallas_call 0 after the call, from the contents `V` it was entered at. -/
theorem value (c : Dev nD) :
    (dat0 (F := Ideal) V c).arrAt 6 cfg0.N =
      Cert.Spec.edgeMlp (F := Ideal) (V c main_v4) (V c main_v5) (V c main_arg3) (V c main_v6) (V c main_arg5) (V c main_v7) :=
  (dat0 (F := Ideal) V c).arrAt_eq_of_cover 6
    (Cert.Spec.edgeMlp (F := Ideal) (V c main_v4) (V c main_v5) (V c main_arg3) (V c main_v6) (V c main_arg5) (V c main_v7))
    (fun t _ => written_block V c t) rows_covered

end Cert.KernelIdeal.Region0

end
-- ==== Proof.Region1.lean ====
/-
  What pallas_call 1 leaves in its output array: grid point `t` writes rows `5000 t … 5000 t + 4999`, computed from
  the same rows of the two gathered operands and the whole weight and bias operands, and the 128 points' blocks
  tile the 640000 rows; so the array ends holding the host's perceptron of the operand arrays as the call found them.
-/
import proofs.«409885_j70153995812874_1_alg».proof.Proof.Gen.KernelIdeal.Frame
import proofs.«409885_j70153995812874_1_alg».proof.Proof.BlockMlp
import proofs.«409885_j70153995812874_1_alg».proof.Proof.EdgeMlpApply

set_option maxRecDepth 16384

noncomputable section

namespace Cert.KernelIdeal.Region1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The offsets of a rectangle that starts at the origin, as the constant zero. -/
private theorem origin : (![0, 0] : Fin 2 → Nat) = fun _ => 0 := funext fun a => by fin_cases a <;> rfl

/-- An entry of the perceptron reads its first two operands only in the entry's own row: two entries in the same
    column agree as soon as those rows agree, whatever the number of rows of either pair of operands. -/
private theorem mlpEntry_row_congr {n n' : Nat} (xd xs : Fin n → Fin 128 → EReal) (xd' xs' : Fin n' → Fin 128 → EReal)
    (w1 : Fin 256 → Fin 128 → EReal) (b1 : Fin 128 → EReal) (w2 : Fin 128 → Fin 128 → EReal) (b2 : Fin 128 → EReal)
    (e : Fin n) (e' : Fin n') (q : Fin 128) (hd : ∀ l, xd e l = xd' e' l) (hs : ∀ l, xs e l = xs' e' l) :
    Cert.Spec.mlpEntry xd xs w1 b1 w2 b2 e q = Cert.Spec.mlpEntry xd' xs' w1 b1 w2 b2 e' q := by
  have hj : ∀ l : Fin 256, Cert.Spec.joined xd xs e l = Cert.Spec.joined xd' xs' e' l := by
    intro l
    unfold Cert.Spec.joined
    split
    · exact hd _
    · exact hs _
  unfold Cert.Spec.mlpEntry
  simp only [hj]

/-- Where each window's block sits at grid point `t`: the two row operands and the output at row block `t`,
    column block 0; the weights and biases at block (0, 0). -/
private theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The body's arithmetic at entry `(p, q)` of a block is the host's perceptron at entry `(e, q)` of the arrays,
    when row `p` of the two row blocks is row `e` of the two row arrays and the other blocks are the other arrays. -/
private theorem body_entry (x0 x1 : Vec Ideal S5000x128 .f32) (x2 : Vec Ideal S256x128 .f32) (x3 : Vec Ideal S1x128 .f32)
    (x4 : Vec Ideal S128x128 .f32) (x5 : Vec Ideal S1x128 .f32)
    (xd xs : FVec Ideal S640000x128 .f32) (w1 : FVec Ideal S256x128 .f32) (b1 : FVec Ideal S1x128 .f32)
    (w2 : FVec Ideal S128x128 .f32) (b2 : FVec Ideal S1x128 .f32)
    (p : Fin 5000) (q : Fin 128) (e : Fin 640000)
    (h0 : ∀ l : Fin 128, x0 (ix2 p l) = xd (ix2 e l)) (h1 : ∀ l : Fin 128, x1 (ix2 p l) = xs (ix2 e l))
    (h2 : x2 = w1) (h3 : x3 = b1) (h4 : x4 = w2) (h5 : x5 = b2) :
    k1_pay1 (F := Ideal) x0 x1 x2 x3 x4 x5 (ix2 p q) = Cert.Spec.edgeMlp (F := Ideal) xd xs w1 b1 w2 b2 (ix2 e q) := by
  subst h2 h3 h4 h5
  rw [Cert.KernelIdeal.Block.k1_pay1_apply, Cert.Spec.edgeMlp_apply]
  exact mlpEntry_row_congr _ _ _ _ _ _ _ _ p e q h0 h1

/-- What grid point `t` writes back is rows `5000 t … 5000 t + 4999` of the host's perceptron of the operand arrays. -/
private theorem written_block (c : Dev nD) (t : Fin cfg1.N) :
    (dat1 (F := Ideal) V c).flushed 6 t = ((cfg1.win 6).blk t).view.read (Elt Ideal)
      (Cert.Spec.edgeMlp (F := Ideal) (V c main_v13) (V c main_v14) (V c main_arg7) (V c main_v15) (V c main_arg9) (V c main_v16)) := by
  show (cfg1.win 6).cut (grid1.coords t) ((dat1 V c).after 6 t) = _
  rw [after1_6]
  unfold out1_6
  rw [View.canon_unit_zero origin]
  simp only [View.ld_unit_zero (S := S5000x128) origin, View.ld_unit_zero (S := S256x128) origin,
    View.ld_unit_zero (S := S1x128) origin, View.ld_unit_zero (S := S128x128) origin]
  obtain ⟨a00, a01, a10, a11, a20, a21, a30, a31, a40, a41, a50, a51, a60, a61⟩ := block_index t
  have ht : t.val < 128 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  -- the row of the arrays under row `p` of the blocks at point `t`
  have he : 5000 * t.val + p.val < 640000 := by omega
  refine (body_entry _ _ _ _ _ _ (V c main_v13) (V c main_v14) (V c main_arg7) (V c main_v15) (V c main_arg9) (V c main_v16)
    p q ⟨5000 * t.val + p.val, he⟩ ?_ ?_ ?_ ?_ ?_ ?_).trans ?_
  · intro l
    show V c main_v13 (((cfg1.win 0).blk t).view.emb (ix2 p l)) = V c main_v13 (ix2 ⟨5000 * t.val + p.val, he⟩ l)
    refine congrArg _ ?_
    funext a; apply Fin.ext
    match a with
    | ⟨0, _⟩ => show win1_0.index t (0 : Fin 2) * 5000 + 1 * p.val = 5000 * t.val + p.val; omega
    | ⟨1, _⟩ => show win1_0.index t (1 : Fin 2) * 128 + 1 * l.val = l.val; omega
  · intro l
    show V c main_v14 (((cfg1.win 1).blk t).view.emb (ix2 p l)) = V c main_v14 (ix2 ⟨5000 * t.val + p.val, he⟩ l)
    refine congrArg _ ?_
    funext a; apply Fin.ext
    match a with
    | ⟨0, _⟩ => show win1_1.index t (0 : Fin 2) * 5000 + 1 * p.val = 5000 * t.val + p.val; omega
    | ⟨1, _⟩ => show win1_1.index t (1 : Fin 2) * 128 + 1 * l.val = l.val; omega
  · funext y
    show V c main_arg7 (((cfg1.win 2).blk t).view.emb y) = V c main_arg7 y
    refine congrArg _ ?_
    funext a; apply Fin.ext
    match a with
    | ⟨0, _⟩ => show win1_2.index t (0 : Fin 2) * 256 + 1 * (y 0).val = (y 0).val; omega
    | ⟨1, _⟩ => show win1_2.index t (1 : Fin 2) * 128 + 1 * (y 1).val = (y 1).val; omega
  · funext y
    show V c main_v15 (((cfg1.win 3).blk t).view.emb y) = V c main_v15 y
    refine congrArg _ ?_
    funext a; apply Fin.ext
    match a with
    | ⟨0, _⟩ => show win1_3.index t (0 : Fin 2) * 1 + 1 * (y 0).val = (y 0).val; omega
    | ⟨1, _⟩ => show win1_3.index t (1 : Fin 2) * 128 + 1 * (y 1).val = (y 1).val; omega
  · funext y
    show V c main_arg9 (((cfg1.win 4).blk t).view.emb y) = V c main_arg9 y
    refine congrArg _ ?_
    funext a; apply Fin.ext
    match a with
    | ⟨0, _⟩ => show win1_4.index t (0 : Fin 2) * 128 + 1 * (y 0).val = (y 0).val; omega
    | ⟨1, _⟩ => show win1_4.index t (1 : Fin 2) * 128 + 1 * (y 1).val = (y 1).val; omega
  · funext y
    show V c main_v16 (((cfg1.win 5).blk t).view.emb y) = V c main_v16 y
    refine congrArg _ ?_
    funext a; apply Fin.ext
    match a with
    | ⟨0, _⟩ => show win1_5.index t (0 : Fin 2) * 1 + 1 * (y 0).val = (y 0).val; omega
    | ⟨1, _⟩ => show win1_5.index t (1 : Fin 2) * 128 + 1 * (y 1).val = (y 1).val; omega
  · show Cert.Spec.edgeMlp (F := Ideal) (V c main_v13) (V c main_v14) (V c main_arg7) (V c main_v15) (V c main_arg9) (V c main_v16) _
      = Cert.Spec.edgeMlp (F := Ideal) (V c main_v13) (V c main_v14) (V c main_arg7) (V c main_v15) (V c main_arg9) (V c main_v16)
          (((cfg1.win 6).blk t).view.emb (ix2 p q))
    refine congrArg _ ?_
    funext a; apply Fin.ext
    match a with
    | ⟨0, _⟩ => show 5000 * t.val + p.val = win1_6.index t (0 : Fin 2) * 5000 + 1 * p.val; omega
    | ⟨1, _⟩ => show q.val = win1_6.index t (1 : Fin 2) * 128 + 1 * q.val; omega

/-- A row and column of the array lie in point `t`'s block iff each lies in the block's range on its axis. -/
private theorem mem_block (t : Fin cfg1.N) (i : S640000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v17).slice (win1_6.rect t)).set ↔ _
  rw [View.set_slice_whole, Rect.mem_set_unit]
  exact Iff.rfl

/-- The 128 blocks of 5000 rows tile the 640000 rows: row `r` is in the block of point `r / 5000`. -/
private theorem rows_covered (i : S640000x128.Idx) :
    ∃ t : Fin cfg1.N, (cfg1.win 6).flush t = true ∧ i ∈ ((cfg1.win 6).blk t).view.set := by
  have hi0 : (i 0).val < 640000 := (i 0).isLt
  have hi1 : (i 1).val < 128 := (i 1).isLt
  have hN : cfg1.N = 128 := N_1
  have ht : (i 0).val / 5000 < cfg1.N := lt_of_lt_of_eq (by omega) hN.symm
  obtain ⟨-, -, -, -, -, -, -, -, -, -, -, -, a60, a61⟩ := block_index ⟨(i 0).val / 5000, ht⟩
  have b60 : win1_6.index ⟨(i 0).val / 5000, ht⟩ (0 : Fin 2) = (i 0).val / 5000 := a60
  refine ⟨⟨(i 0).val / 5000, ht⟩, flush1_6 _, ?_⟩
  rw [mem_block]
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    omega
  | ⟨1, _⟩ =>
    show win1_6.index ⟨(i 0).val / 5000, ht⟩ (1 : Fin 2) * 128 ≤ (i 1).val
      ∧ (i 1).val < win1_6.index ⟨(i 0).val / 5000, ht⟩ (1 : Fin 2) * 128 + 128
    omega

/-- The output array of pallas_call 1 after the call, from the contents `V` it was entered at. -/
theorem value (c : Dev nD) :
    (dat1 (F := Ideal) V c).arrAt 6 cfg1.N =
      Cert.Spec.edgeMlp (F := Ideal) (V c main_v13) (V c main_v14) (V c main_arg7) (V c main_v15) (V c main_arg9) (V c main_v16) :=
  (dat1 (F := Ideal) V c).arrAt_eq_of_cover 6
    (Cert.Spec.edgeMlp (F := Ideal) (V c main_v13) (V c main_v14) (V c main_arg7) (V c main_v15) (V c main_arg9) (V c main_v16))
    (fun t _ => written_block V c t) rows_covered

end Cert.KernelIdeal.Region1

end
-- ==== Proof.TakeFill.lean ====
/-
  The kernel program gathers node rows with a "fill" take: a row whose index, after counting a negative one
  from the end, falls outside 0 … 39999 is replaced by a not-a-number fill.  When every entry of the edge list
  is a node index in 0 … 39999 no row is replaced, and the take is the plain gather the reference performs.
  The precondition says exactly that of the edge list.
-/
import proofs.«409885_j70153995812874_1_alg».proof.Proof.Gen.KernelIdeal
import proofs.«409885_j70153995812874_1_alg».proof.Proof.Gen.Pre_finite_inputs
import proofs.«409885_j70153995812874_1_alg».proof.Proof.Spec
import Idealize.ShloMosaic.Lib.Pipeline.Value
import Idealize.ShloMosaic.Lib.ValueIdx
import Idealize.ShloMosaic.Lib.ReduceAll
import Idealize.ShloMosaic.Lib.StableHlo.Predicate

noncomputable section

namespace Cert.KernelIdeal.Take

open Cert.KernelIdeal Cert.KernelIdeal.Gen Idealize.ShloMosaic

variable {F : FTy → Type} [FloatOps F]

/-- Every entry of the edge list is a node index: at least 0 and below 40000, as a signed word. -/
def EdgesInRange (ei : IVec S2x640000 32) : Prop :=
  ∀ j : S2x640000.Idx, (0 : Int) ≤ (ei j).toInt ∧ (ei j).toInt < 40000

/-- Row 0 of the edge list as the kernel program slices it: every edge's source node. -/
def srcK (ei : IVec S2x640000 32) : IVec S640000 32 :=
  shapeCast _ (extractStridedSlice S1x640000 ![0, 0] ei slices_S2x640000_S1x640000_0_0) shapeCasts_S1x640000_S640000

/-- Row 1 of the edge list as the kernel program slices it: every edge's target node. -/
def dstK (ei : IVec S2x640000 32) : IVec S640000 32 :=
  shapeCast _ (extractStridedSlice S1x640000 ![1, 0] ei slices_S2x640000_S1x640000_1_0) shapeCasts_S1x640000_S640000

/-- The index column the take gathers with: a negative index counted from the end. -/
def wrapK (idx : IVec S640000 32) : IVec S640000x1 32 :=
  broadcastInDim S640000x1 ![0] bcast_S640000_S640000x1_0
    (select (cmpi .slt idx (broadcastInDim S640000 ![] bcast_S_S640000 (constantI S_ 32 0#32)))
      (addi idx (broadcastInDim S640000 ![] bcast_S_S640000 (constantI S_ 32 40000#32))) idx)

/-- The kernel program's take of rows of `x` at `idx`: the gathered row where the wrapped index lies in
    0 … 39999, the fill elsewhere. -/
def takeFill (x : FVec F S40000x128 .f32) (idx : IVec S640000 32) : FVec F S640000x128 .f32 :=
  select (broadcastInDim S640000x128 ![0] bcast_S640000_S640000x128_0
      (Host.reduce IntOp.andi
        (andi (cmpi .sge (wrapK idx) (broadcastInDim S640000x1 ![] bcast_S_S640000x1 (constantI S_ 32 0#32)))
          (cmpi .sle (wrapK idx) (broadcastInDim S640000x1 ![0, 1] bcast_S1x1_S640000x1_0_1
            (broadcastInDim S1x1 ![1] bcast_S1_S1x1_1 (constantI S1 32 39999#32)))))
        (constantI S_ 1 1#1) reducesTo_S640000x1_S640000_d1 h_S_))
    (Host.gather gather_S40000x128_S640000x1_S640000x128_1_0_n_n_0_1_1128 x (wrapK idx))
    (broadcastInDim S640000x128 ![] bcast_S_S640000x128 (constant S_ .f32 0x7FC00000#32))

/-! ### Words and one-bit folds -/

/-- A left fold by `and` over one-bit words that starts at 1 and meets only 1s ends at 1. -/
private theorem foldl_andi_all_one {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a List.mem_cons_self, e]
    exact foldl_andi_all_one f l fun n hn => h n (List.mem_cons_of_mem _ hn)

/-- An and-reduce, from the constant 1, of a one-bit array that is 1 everywhere is 1 at every result index. -/
private theorem reduce_andi_of_all_one {s t u : Shape} {axes : List (Fin s.rank)} (m : s.Idx → BitVec 1)
    (hr : s.ReducesTo axes t) (hu : 0 < u.numel) (hm : ∀ i, m i = 1#1) (j : t.Idx) :
    Host.reduce IntOp.andi m (constantI u 1 1#1) hr hu j = 1#1 := by
  rw [Host.reduce_eq_foldl]
  exact foldl_andi_all_one m _ fun i _ => hm i

/-- A signed word in 0 … 39999 is not below zero, is at least zero, and is at most 39999. -/
private theorem word_inRange (v : BitVec 32) (h0 : (0 : Int) ≤ v.toInt) (h1 : v.toInt < 40000) :
    IntOp.cmpi .slt v 0#32 = 0#1 ∧ IntOp.cmpi .sge v 0#32 = 1#1 ∧ IntOp.cmpi .sle v 39999#32 = 1#1 := by
  have e0 : (0#32 : BitVec 32).toInt = 0 := by decide
  have e1 : (39999#32 : BitVec 32).toInt = 39999 := by decide
  refine ⟨?_, ?_, ?_⟩
  · refine ValueIdx.eq_zero_of_ne_one fun hc => ?_
    rw [IntOp.cmpi_slt, e0] at hc
    omega
  · rw [IntOp.cmpi_sge, e0]; exact h0
  · rw [IntOp.cmpi_sle, e1]; omega

/-! ### The wrapped index and the mask at an index -/

/-- The wrapped index column at a position is the select on one entry of the index vector. -/
private theorem wrapK_apply (idx : IVec S640000 32) (i : S640000x1.Idx) :
    ∃ k : S640000.Idx, wrapK idx i
      = Scalar.select (IntOp.cmpi .slt (idx k) 0#32) (IntOp.addi (idx k) 40000#32) (idx k) :=
  ⟨_, rfl⟩

/-- With every entry in 0 … 39999 the wrapped index is the entry itself, and passes both range tests. -/
private theorem mask_apply (idx : IVec S640000 32)
    (h : ∀ j : S640000.Idx, (0 : Int) ≤ (idx j).toInt ∧ (idx j).toInt < 40000) (i : S640000x1.Idx) :
    andi (cmpi .sge (wrapK idx) (broadcastInDim S640000x1 ![] bcast_S_S640000x1 (constantI S_ 32 0#32)))
      (cmpi .sle (wrapK idx) (broadcastInDim S640000x1 ![0, 1] bcast_S1x1_S640000x1_0_1
        (broadcastInDim S1x1 ![1] bcast_S1_S1x1_1 (constantI S1 32 39999#32)))) i = 1#1 := by
  obtain ⟨k, hk⟩ := wrapK_apply idx i
  obtain ⟨hs, hge, hle⟩ := word_inRange (idx k) (h k).1 (h k).2
  have hw : wrapK idx i = idx k := by rw [hk, hs, ValueIdx.select_zero]
  show IntOp.andi (IntOp.cmpi .sge (wrapK idx i) 0#32) (IntOp.cmpi .sle (wrapK idx i) 39999#32) = 1#1
  rw [hw, hge, hle]
  decide

/-- The wrapped index column and the gather's dimension numbers are the reference's. -/
private theorem wrapK_eq (idx : IVec S640000 32) : wrapK idx = Cert.Spec.wrapIdx idx := rfl

private theorem gatherDims_eq :
    gather_S40000x128_S640000x1_S640000x128_1_0_n_n_0_1_1128
      = Cert.ReferenceIdeal.gather_S40000x128_S640000x1_S640000x128_1_0_n_n_0_1_1128 := rfl

/-- With every index in 0 … 39999 the fill take keeps every gathered row: it is the reference's gather. -/
private theorem takeFill_eq (x : FVec F S40000x128 .f32) (idx : IVec S640000 32)
    (h : ∀ j : S640000.Idx, (0 : Int) ≤ (idx j).toInt ∧ (idx j).toInt < 40000) :
    takeFill x idx = Cert.Spec.rowsOf x idx := by
  funext j
  unfold takeFill Cert.Spec.rowsOf
  rw [ValueIdx.select_apply]
  have hm : broadcastInDim S640000x128 ![0] bcast_S640000_S640000x128_0
      (Host.reduce IntOp.andi
        (andi (cmpi .sge (wrapK idx) (broadcastInDim S640000x1 ![] bcast_S_S640000x1 (constantI S_ 32 0#32)))
          (cmpi .sle (wrapK idx) (broadcastInDim S640000x1 ![0, 1] bcast_S1x1_S640000x1_0_1
            (broadcastInDim S1x1 ![1] bcast_S1_S1x1_1 (constantI S1 32 39999#32)))))
        (constantI S_ 1 1#1) reducesTo_S640000x1_S640000_d1 h_S_) j = 1#1 :=
    reduce_andi_of_all_one _ _ _ (mask_apply idx h) _
  rw [hm, ValueIdx.select_one, wrapK_eq, gatherDims_eq]

/-- The kernel program's slices of the edge list are the reference's. -/
theorem srcK_eq (ei : IVec S2x640000 32) : srcK ei = Cert.Spec.srcOf ei := rfl

theorem dstK_eq (ei : IVec S2x640000 32) : dstK ei = Cert.Spec.dstOf ei := rfl

/-- An entry of either row of the edge list is an entry of the edge list. -/
private theorem srcK_inRange (ei : IVec S2x640000 32) (h : EdgesInRange ei) (j : S640000.Idx) :
    (0 : Int) ≤ (srcK ei j).toInt ∧ (srcK ei j).toInt < 40000 := h _

private theorem dstK_inRange (ei : IVec S2x640000 32) (h : EdgesInRange ei) (j : S640000.Idx) :
    (0 : Int) ≤ (dstK ei j).toInt ∧ (dstK ei j).toInt < 40000 := h _

/-- With every edge entry a node index, the take of the source rows is the reference's gather. -/
theorem takeFill_src (x : FVec F S40000x128 .f32) (ei : IVec S2x640000 32) (h : EdgesInRange ei) :
    takeFill x (srcK ei) = Cert.Spec.rowsOf x (Cert.Spec.srcOf ei) := by
  rw [takeFill_eq x (srcK ei) (srcK_inRange ei h), srcK_eq]

/-- With every edge entry a node index, the take of the target rows is the reference's gather. -/
theorem takeFill_dst (x : FVec F S40000x128 .f32) (ei : IVec S2x640000 32) (h : EdgesInRange ei) :
    takeFill x (dstK ei) = Cert.Spec.rowsOf x (Cert.Spec.dstOf ei) := by
  rw [takeFill_eq x (dstK ei) (dstK_inRange ei h), dstK_eq]

/-- The precondition makes every edge entry a node index (its last conjunct; the others say the float inputs are finite). -/
theorem edgesInRange_of_pre (x0 : FVec Ideal S40000x128 .f32) (x1 : IVec S2x640000 32) (x2 : IVec S40000 32)
    (x3 : FVec Ideal S256x128 .f32) (x4 : FVec Ideal S128 .f32) (x5 : FVec Ideal S128x128 .f32) (x6 : FVec Ideal S128 .f32)
    (x7 : FVec Ideal S256x128 .f32) (x8 : FVec Ideal S128 .f32) (x9 : FVec Ideal S128x128 .f32) (x10 : FVec Ideal S128 .f32)
    (x11 : FVec Ideal S128x128 .f32) (x12 : FVec Ideal S128 .f32) (x13 : FVec Ideal S128x512 .f32) (x14 : FVec Ideal S512 .f32)
    (h : Cert.Pre_finite_inputs.fn (F := Ideal) x0 x1 x2 x3 x4 x5 x6 x7 x8 x9 x10 x11 x12 x13 x14 = fun _ => 1#1) :
    EdgesInRange x1 := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  -- the last conjunct: the and-reduce over the whole edge list is 1
  have hB : Host.reduce IntOp.andi
      (andi (cmpi .sge x1 (broadcastInDim Cert.Pre_finite_inputs.S2x640000 ![] Cert.Pre_finite_inputs.Facts.bcast_S_S2x640000
          (constantI Cert.Pre_finite_inputs.S_ 32 0#32)))
        (cmpi .slt x1 (broadcastInDim Cert.Pre_finite_inputs.S2x640000 ![] Cert.Pre_finite_inputs.Facts.bcast_S_S2x640000
          (constantI Cert.Pre_finite_inputs.S_ 32 40000#32))))
      (constantI Cert.Pre_finite_inputs.S_ 1 1#1) Cert.Pre_finite_inputs.Facts.reducesTo_S2x640000_S_d0_1
      Cert.Pre_finite_inputs.Facts.h_S_ ValueIdx.ix0 = 1#1 :=
    (IntOp.andi_eq_one.1 h0).2
  intro j
  haveI : Subsingleton Cert.Pre_finite_inputs.S_.Idx := ⟨fun a b => funext fun d => d.elim0⟩
  -- so the two compares hold at every entry
  have hj := Host.reduce_andi_all _ _ _ _ _ hB j
  obtain ⟨hge, hlt⟩ := IntOp.andi_eq_one.1 hj
  have hge' : IntOp.cmpi .sge (x1 j) 0#32 = 1#1 := hge
  have hlt' : IntOp.cmpi .slt (x1 j) 40000#32 = 1#1 := hlt
  rw [IntOp.cmpi_sge, show (0#32 : BitVec 32).toInt = 0 from by decide] at hge'
  rw [IntOp.cmpi_slt, show (40000#32 : BitVec 32).toInt = 40000 from by decide] at hlt'
  exact ⟨hge', hlt'⟩

end Cert.KernelIdeal.Take

end
-- ==== Proof.KernelKept.lean ====
/- Buffers the host stretches leave alone.  Before the first pallas_call @main runs four stretches of host
   operations (the slices of the edge list, two takes, two reshapes) and between the calls five (a scatter-add, a
   rectifier, two takes, two reshapes); each operation writes its own result buffer only, so an argument array, or
   a buffer an earlier stretch produced, still holds at the later boundary what it held at the earlier one. -/
import proofs.«409885_j70153995812874_1_alg».proof.Proof.Gen.KernelIdeal.Frame
import Idealize.ShloMosaic.Lib.StableHlo.Run

set_option maxRecDepth 16384

noncomputable section

namespace Cert.KernelIdeal.ResultValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## At the first call's entry: as launched -/

theorem W4_arg2 (c : Dev nD) : W4 m ρ c (Proc.devRef .tc main_arg2) = (m ((c.tc : Thread nD τ).loc main_arg2)) := by
  show StableHlo.after hostOps0_3 (StableHlo.after hostOps0_2 (StableHlo.after hostOps0_1 (StableHlo.after hostOps0 (W0 m ρ c)))) _ = _
  after_results_simp

theorem W4_arg3 (c : Dev nD) : W4 m ρ c (Proc.devRef .tc main_arg3) = (m ((c.tc : Thread nD τ).loc main_arg3)) := by
  show StableHlo.after hostOps0_3 (StableHlo.after hostOps0_2 (StableHlo.after hostOps0_1 (StableHlo.after hostOps0 (W0 m ρ c)))) _ = _
  after_results_simp

theorem W4_arg5 (c : Dev nD) : W4 m ρ c (Proc.devRef .tc main_arg5) = (m ((c.tc : Thread nD τ).loc main_arg5)) := by
  show StableHlo.after hostOps0_3 (StableHlo.after hostOps0_2 (StableHlo.after hostOps0_1 (StableHlo.after hostOps0 (W0 m ρ c)))) _ = _
  after_results_simp

theorem W4_arg7 (c : Dev nD) : W4 m ρ c (Proc.devRef .tc main_arg7) = (m ((c.tc : Thread nD τ).loc main_arg7)) := by
  show StableHlo.after hostOps0_3 (StableHlo.after hostOps0_2 (StableHlo.after hostOps0_1 (StableHlo.after hostOps0 (W0 m ρ c)))) _ = _
  after_results_simp

theorem W4_arg8 (c : Dev nD) : W4 m ρ c (Proc.devRef .tc main_arg8) = (m ((c.tc : Thread nD τ).loc main_arg8)) := by
  show StableHlo.after hostOps0_3 (StableHlo.after hostOps0_2 (StableHlo.after hostOps0_1 (StableHlo.after hostOps0 (W0 m ρ c)))) _ = _
  after_results_simp

theorem W4_arg9 (c : Dev nD) : W4 m ρ c (Proc.devRef .tc main_arg9) = (m ((c.tc : Thread nD τ).loc main_arg9)) := by
  show StableHlo.after hostOps0_3 (StableHlo.after hostOps0_2 (StableHlo.after hostOps0_1 (StableHlo.after hostOps0 (W0 m ρ c)))) _ = _
  after_results_simp

theorem W4_arg10 (c : Dev nD) : W4 m ρ c (Proc.devRef .tc main_arg10) = (m ((c.tc : Thread nD τ).loc main_arg10)) := by
  show StableHlo.after hostOps0_3 (StableHlo.after hostOps0_2 (StableHlo.after hostOps0_1 (StableHlo.after hostOps0 (W0 m ρ c)))) _ = _
  after_results_simp

theorem W4_arg11 (c : Dev nD) : W4 m ρ c (Proc.devRef .tc main_arg11) = (m ((c.tc : Thread nD τ).loc main_arg11)) := by
  show StableHlo.after hostOps0_3 (StableHlo.after hostOps0_2 (StableHlo.after hostOps0_1 (StableHlo.after hostOps0 (W0 m ρ c)))) _ = _
  after_results_simp

theorem W4_arg12 (c : Dev nD) : W4 m ρ c (Proc.devRef .tc main_arg12) = (m ((c.tc : Thread nD τ).loc main_arg12)) := by
  show StableHlo.after hostOps0_3 (StableHlo.after hostOps0_2 (StableHlo.after hostOps0_1 (StableHlo.after hostOps0 (W0 m ρ c)))) _ = _
  after_results_simp

theorem W4_arg13 (c : Dev nD) : W4 m ρ c (Proc.devRef .tc main_arg13) = (m ((c.tc : Thread nD τ).loc main_arg13)) := by
  show StableHlo.after hostOps0_3 (StableHlo.after hostOps0_2 (StableHlo.after hostOps0_1 (StableHlo.after hostOps0 (W0 m ρ c)))) _ = _
  after_results_simp

theorem W4_arg14 (c : Dev nD) : W4 m ρ c (Proc.devRef .tc main_arg14) = (m ((c.tc : Thread nD τ).loc main_arg14)) := by
  show StableHlo.after hostOps0_3 (StableHlo.after hostOps0_2 (StableHlo.after hostOps0_1 (StableHlo.after hostOps0 (W0 m ρ c)))) _ = _
  after_results_simp

/-! ## At the second call's entry: as at the first call's exit -/

theorem W10_arg7 (c : Dev nD) : W10 m ρ c (Proc.devRef .tc main_arg7) = W5 m ρ c (Proc.devRef .tc main_arg7) := by
  show StableHlo.after hostOps1_4 (StableHlo.after hostOps1_3 (StableHlo.after hostOps1_2 (StableHlo.after hostOps1_1 (StableHlo.after hostOps1 (W5 m ρ c))))) _ = _
  after_results_simp

theorem W10_arg9 (c : Dev nD) : W10 m ρ c (Proc.devRef .tc main_arg9) = W5 m ρ c (Proc.devRef .tc main_arg9) := by
  show StableHlo.after hostOps1_4 (StableHlo.after hostOps1_3 (StableHlo.after hostOps1_2 (StableHlo.after hostOps1_1 (StableHlo.after hostOps1 (W5 m ρ c))))) _ = _
  after_results_simp

theorem W10_v3 (c : Dev nD) : W10 m ρ c (Proc.devRef .tc main_v3) = W5 m ρ c (Proc.devRef .tc main_v3) := by
  show StableHlo.after hostOps1_4 (StableHlo.after hostOps1_3 (StableHlo.after hostOps1_2 (StableHlo.after hostOps1_1 (StableHlo.after hostOps1 (W5 m ρ c))))) _ = _
  after_results_simp

theorem W10_arg2 (c : Dev nD) : W10 m ρ c (Proc.devRef .tc main_arg2) = W5 m ρ c (Proc.devRef .tc main_arg2) := by
  show StableHlo.after hostOps1_4 (StableHlo.after hostOps1_3 (StableHlo.after hostOps1_2 (StableHlo.after hostOps1_1 (StableHlo.after hostOps1 (W5 m ρ c))))) _ = _
  after_results_simp

theorem W10_arg11 (c : Dev nD) : W10 m ρ c (Proc.devRef .tc main_arg11) = W5 m ρ c (Proc.devRef .tc main_arg11) := by
  show StableHlo.after hostOps1_4 (StableHlo.after hostOps1_3 (StableHlo.after hostOps1_2 (StableHlo.after hostOps1_1 (StableHlo.after hostOps1 (W5 m ρ c))))) _ = _
  after_results_simp

theorem W10_arg12 (c : Dev nD) : W10 m ρ c (Proc.devRef .tc main_arg12) = W5 m ρ c (Proc.devRef .tc main_arg12) := by
  show StableHlo.after hostOps1_4 (StableHlo.after hostOps1_3 (StableHlo.after hostOps1_2 (StableHlo.after hostOps1_1 (StableHlo.after hostOps1 (W5 m ρ c))))) _ = _
  after_results_simp

theorem W10_arg13 (c : Dev nD) : W10 m ρ c (Proc.devRef .tc main_arg13) = W5 m ρ c (Proc.devRef .tc main_arg13) := by
  show StableHlo.after hostOps1_4 (StableHlo.after hostOps1_3 (StableHlo.after hostOps1_2 (StableHlo.after hostOps1_1 (StableHlo.after hostOps1 (W5 m ρ c))))) _ = _
  after_results_simp

theorem W10_arg14 (c : Dev nD) : W10 m ρ c (Proc.devRef .tc main_arg14) = W5 m ρ c (Proc.devRef .tc main_arg14) := by
  show StableHlo.after hostOps1_4 (StableHlo.after hostOps1_3 (StableHlo.after hostOps1_2 (StableHlo.after hostOps1_1 (StableHlo.after hostOps1 (W5 m ρ c))))) _ = _
  after_results_simp

end Cert.KernelIdeal.ResultValue

end
-- ==== Proof.KernelValue.lean ====
/-
  What the kernel program's fold of buffer contents holds for the result array at the end of @main: read back
  stretch by stretch, it is the encoder of the arguments.  The host operations around the two pallas_calls are
  the reference's own; each call's output array is the host perceptron of its operand arrays; and, the edge list
  holding node indices only, each fill-mode take is the plain gather.
-/
import proofs.«409885_j70153995812874_1_alg».proof.Proof.Gen.KernelIdeal.Frame
import proofs.«409885_j70153995812874_1_alg».proof.Proof.Region0
import proofs.«409885_j70153995812874_1_alg».proof.Proof.Region1
import proofs.«409885_j70153995812874_1_alg».proof.Proof.TakeFill
import proofs.«409885_j70153995812874_1_alg».proof.Proof.Spec
import proofs.«409885_j70153995812874_1_alg».proof.Proof.KernelKept
import Idealize.ShloMosaic.Lib.StableHlo.Run
import Idealize.ShloMosaic.Lib.Pipeline.Value

set_option maxRecDepth 16384

noncomputable section

namespace Cert.KernelIdeal.ResultValue

open Cert.KernelIdeal Cert.KernelIdeal.Gen Idealize.ShloMosaic Idealize.ShloMosaic.TcCoe Idealize.SL.Sem Idealize.ShloMosaic.StableHlo

section Fold

variable {F : FTy → Type} [FloatOps F]

/-- A value written to a typed buffer and read back at the same buffer is the value. -/
theorem ofBuf_toBuf {T : BufTy} (x : TRef sig T) (v : T.Contents (Elt F)) : x.ofBuf (x.toBuf v) = v := by
  unfold TRef.ofBuf TRef.toBuf
  simp only [cast_cast, cast_eq]

/-- The entry of a 128-vector that entry `j` of its one-row form reads. -/
abbrev rowEntry (j : S1x128.Idx) : S128.Idx := fun a => match a with
  | ⟨0, _⟩ => ⟨(j 1).val, (j 1).isLt⟩

/-- A bias vector reshaped to one row is the bias broadcast along a new leading axis: both read entry `j 1`. -/
theorem biasRow_eq (b : FVec F S128 .f32) : shapeCast S1x128 b shapeCasts_S128_S1x128 = Cert.Spec.biasRow b := by
  funext j
  unfold Cert.Spec.biasRow
  have hk : (S128.rowMajor (rowEntry j)).val = (S1x128.rowMajor j).val := by
    rewrite [Shape.rowMajor_val_two, Shape.rowMajor_val_one]
    have h0 : (j 0).val < 1 := (j 0).isLt
    show (j 1).val = (j 0).val * 128 + (j 1).val
    omega
  rw [shapeCast_apply b shapeCasts_S128_S1x128 j (rowEntry j) hk]
  exact (broadcastInDim_apply _ Cert.ReferenceIdeal.Gen.bcast_S128_S1x128_1 b j (rowEntry j)
    (fun a => match a with
      | ⟨0, _⟩ => by show (j 1).val = if (128 : Nat) = 1 then 0 else (j 1).val; rw [if_neg (by decide)])).symm

variable (m : (ℓ : Loc nD τ sig) → Buf (Elt F) ℓ) (ρ : Dev nD → PrngReg)

/-! ## Before the first call: the slices of the edge list, the two takes, the reshaped biases -/

theorem W4_v3 (c : Dev nD) : W4 m ρ c (Proc.devRef .tc main_v3) = Take.dstK (m ((c.tc : Thread nD τ).loc main_arg1)) := by
  show StableHlo.after hostOps0_3 (StableHlo.after hostOps0_2 (StableHlo.after hostOps0_1 (StableHlo.after hostOps0 (W0 m ρ c)))) _ = _
  after_results_simp
  rfl

theorem W4_v1 (c : Dev nD) : W4 m ρ c (Proc.devRef .tc main_v1) = Take.srcK (m ((c.tc : Thread nD τ).loc main_arg1)) := by
  show StableHlo.after hostOps0_3 (StableHlo.after hostOps0_2 (StableHlo.after hostOps0_1 (StableHlo.after hostOps0 (W0 m ρ c)))) _ = _
  after_results_simp
  rfl

theorem W4_v6 (c : Dev nD) : W4 m ρ c (Proc.devRef .tc main_v6) = Cert.Spec.biasRow (m ((c.tc : Thread nD τ).loc main_arg4)) := by
  show StableHlo.after hostOps0_3 (StableHlo.after hostOps0_2 (StableHlo.after hostOps0_1 (StableHlo.after hostOps0 (W0 m ρ c)))) _ = _
  after_results_simp
  exact biasRow_eq _

theorem W4_v7 (c : Dev nD) : W4 m ρ c (Proc.devRef .tc main_v7) = Cert.Spec.biasRow (m ((c.tc : Thread nD τ).loc main_arg6)) := by
  show StableHlo.after hostOps0_3 (StableHlo.after hostOps0_2 (StableHlo.after hostOps0_1 (StableHlo.after hostOps0 (W0 m ρ c)))) _ = _
  after_results_simp
  exact biasRow_eq _

set_option maxHeartbeats 2000000 in
theorem W4_v4 (c : Dev nD) : W4 m ρ c (Proc.devRef .tc main_v4) = Take.takeFill (m ((c.tc : Thread nD τ).loc main_arg0)) (Take.dstK (m ((c.tc : Thread nD τ).loc main_arg1))) := by
  show StableHlo.after hostOps0_3 (StableHlo.after hostOps0_2 (StableHlo.after hostOps0_1 (StableHlo.after hostOps0 (W0 m ρ c)))) _ = _
  after_results_simp
  simp only [ofBuf_toBuf]
  simp only [TRef.toBuf, TRef.ofBuf, cast_eq]
  rfl

set_option maxHeartbeats 2000000 in
theorem W4_v5 (c : Dev nD) : W4 m ρ c (Proc.devRef .tc main_v5) = Take.takeFill (m ((c.tc : Thread nD τ).loc main_arg0)) (Take.srcK (m ((c.tc : Thread nD τ).loc main_arg1))) := by
  show StableHlo.after hostOps0_3 (StableHlo.after hostOps0_2 (StableHlo.after hostOps0_1 (StableHlo.after hostOps0 (W0 m ρ c)))) _ = _
  after_results_simp
  simp only [ofBuf_toBuf]
  simp only [TRef.toBuf, TRef.ofBuf, cast_eq]
  rfl

/-! ## Between the calls: the first round's aggregation, the two takes of its result, the reshaped biases -/

theorem W10_v15 (c : Dev nD) : W10 m ρ c (Proc.devRef .tc main_v15) = Cert.Spec.biasRow (W5 m ρ c (Proc.devRef .tc main_arg8)) := by
  show StableHlo.after hostOps1_4 (StableHlo.after hostOps1_3 (StableHlo.after hostOps1_2 (StableHlo.after hostOps1_1 (StableHlo.after hostOps1 (W5 m ρ c))))) _ = _
  after_results_simp
  exact biasRow_eq _

theorem W10_v16 (c : Dev nD) : W10 m ρ c (Proc.devRef .tc main_v16) = Cert.Spec.biasRow (W5 m ρ c (Proc.devRef .tc main_arg10)) := by
  show StableHlo.after hostOps1_4 (StableHlo.after hostOps1_3 (StableHlo.after hostOps1_2 (StableHlo.after hostOps1_1 (StableHlo.after hostOps1 (W5 m ρ c))))) _ = _
  after_results_simp
  exact biasRow_eq _

set_option maxHeartbeats 2000000 in
theorem W10_v13 (c : Dev nD) : W10 m ρ c (Proc.devRef .tc main_v13) =
    Take.takeFill (Cert.Spec.aggregate (W5 m ρ c (Proc.devRef .tc main_v3)) (W5 m ρ c (Proc.devRef .tc main_v8))) (W5 m ρ c (Proc.devRef .tc main_v3)) := by
  show StableHlo.after hostOps1_4 (StableHlo.after hostOps1_3 (StableHlo.after hostOps1_2 (StableHlo.after hostOps1_1 (StableHlo.after hostOps1 (W5 m ρ c))))) _ = _
  after_results_simp
  simp only [ofBuf_toBuf]
  simp only [TRef.toBuf, TRef.ofBuf, cast_eq]
  rfl

set_option maxHeartbeats 2000000 in
theorem W10_v14 (c : Dev nD) : W10 m ρ c (Proc.devRef .tc main_v14) =
    Take.takeFill (Cert.Spec.aggregate (W5 m ρ c (Proc.devRef .tc main_v3)) (W5 m ρ c (Proc.devRef .tc main_v8))) (W5 m ρ c (Proc.devRef .tc main_v1)) := by
  show StableHlo.after hostOps1_4 (StableHlo.after hostOps1_3 (StableHlo.after hostOps1_2 (StableHlo.after hostOps1_1 (StableHlo.after hostOps1 (W5 m ρ c))))) _ = _
  after_results_simp
  simp only [ofBuf_toBuf]
  simp only [TRef.toBuf, TRef.ofBuf, cast_eq]
  rfl

/-! ## After the second call: the second round's aggregation, the pool and the output perceptron -/

set_option maxHeartbeats 2000000 in
theorem W16_v43 (c : Dev nD) : W16 m ρ c (Proc.devRef .tc main_v43) =
    Cert.Spec.head (Cert.Spec.aggregate (W11 m ρ c (Proc.devRef .tc main_v3)) (W11 m ρ c (Proc.devRef .tc main_v17)))
      (W11 m ρ c (Proc.devRef .tc main_arg2)) (W11 m ρ c (Proc.devRef .tc main_arg11)) (W11 m ρ c (Proc.devRef .tc main_arg12))
      (W11 m ρ c (Proc.devRef .tc main_arg13)) (W11 m ρ c (Proc.devRef .tc main_arg14)) := by
  show StableHlo.after hostOps2_4 (StableHlo.after hostOps2_3 (StableHlo.after hostOps2_2 (StableHlo.after hostOps2_1 (StableHlo.after hostOps2 (W11 m ρ c))))) _ = _
  after_results_simp
  simp only [ofBuf_toBuf]
  simp only [TRef.toBuf, TRef.ofBuf, cast_eq]
  rfl

end Fold

/-! ## The result, at the exact instance -/

section Value

variable (m : (ℓ : Loc nD τ sig) → Buf (Elt Ideal) ℓ) (ρ : Dev nD → PrngReg)

/-- The first call's output array: the first round's messages. -/
theorem first_messages (c : Dev nD) (h : Take.EdgesInRange (m ((c.tc : Thread nD τ).loc main_arg1))) :
    (W5 m ρ c (Proc.devRef .tc main_v8)) =
      Cert.Spec.edgeMlp (F := Ideal) (Cert.Spec.rowsOf (m ((c.tc : Thread nD τ).loc main_arg0)) (Cert.Spec.dstOf (m ((c.tc : Thread nD τ).loc main_arg1)))) (Cert.Spec.rowsOf (m ((c.tc : Thread nD τ).loc main_arg0)) (Cert.Spec.srcOf (m ((c.tc : Thread nD τ).loc main_arg1))))
        (m ((c.tc : Thread nD τ).loc main_arg3)) (Cert.Spec.biasRow (m ((c.tc : Thread nD τ).loc main_arg4))) (m ((c.tc : Thread nD τ).loc main_arg5)) (Cert.Spec.biasRow (m ((c.tc : Thread nD τ).loc main_arg6))) := by
  refine (W5_arr m ρ c 6).trans ((Region0.value (V4 m ρ) c).trans ?_)
  show Cert.Spec.edgeMlp (F := Ideal) (W4 m ρ c (Proc.devRef .tc main_v4)) (W4 m ρ c (Proc.devRef .tc main_v5)) (W4 m ρ c (Proc.devRef .tc main_arg3)) (W4 m ρ c (Proc.devRef .tc main_v6)) (W4 m ρ c (Proc.devRef .tc main_arg5)) (W4 m ρ c (Proc.devRef .tc main_v7)) = _
  rw [W4_v4, W4_v5, W4_arg3, W4_v6, W4_arg5, W4_v7, Take.takeFill_dst _ _ h, Take.takeFill_src _ _ h]

/-- The node features after the first round. -/
theorem first_round (c : Dev nD) (h : Take.EdgesInRange (m ((c.tc : Thread nD τ).loc main_arg1))) :
    Cert.Spec.aggregate (F := Ideal) (W5 m ρ c (Proc.devRef .tc main_v3)) (W5 m ρ c (Proc.devRef .tc main_v8)) =
      Cert.Spec.layer (F := Ideal) (m ((c.tc : Thread nD τ).loc main_arg0)) (Cert.Spec.srcOf (m ((c.tc : Thread nD τ).loc main_arg1))) (Cert.Spec.dstOf (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6)) := by
  rw [first_messages m ρ c h, W5_of_ne m ρ c main_v3 (by decide), W4_v3, Take.dstK_eq]
  rfl

/-- The second call's output array: the second round's messages. -/
theorem second_messages (c : Dev nD) (h : Take.EdgesInRange (m ((c.tc : Thread nD τ).loc main_arg1))) :
    (W11 m ρ c (Proc.devRef .tc main_v17)) =
      Cert.Spec.edgeMlp (F := Ideal)
        (Cert.Spec.rowsOf (Cert.Spec.layer (F := Ideal) (m ((c.tc : Thread nD τ).loc main_arg0)) (Cert.Spec.srcOf (m ((c.tc : Thread nD τ).loc main_arg1))) (Cert.Spec.dstOf (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6))) (Cert.Spec.dstOf (m ((c.tc : Thread nD τ).loc main_arg1))))
        (Cert.Spec.rowsOf (Cert.Spec.layer (F := Ideal) (m ((c.tc : Thread nD τ).loc main_arg0)) (Cert.Spec.srcOf (m ((c.tc : Thread nD τ).loc main_arg1))) (Cert.Spec.dstOf (m ((c.tc : Thread nD τ).loc main_arg1))) (m ((c.tc : Thread nD τ).loc main_arg3)) (m ((c.tc : Thread nD τ).loc main_arg4)) (m ((c.tc : Thread nD τ).loc main_arg5)) (m ((c.tc : Thread nD τ).loc main_arg6))) (Cert.Spec.srcOf (m ((c.tc : Thread nD τ).loc main_arg1))))
        (m ((c.tc : Thread nD τ).loc main_arg7)) (Cert.Spec.biasRow (m ((c.tc : Thread nD τ).loc main_arg8))) (m ((c.tc : Thread nD τ).loc main_arg9)) (Cert.Spec.biasRow (m ((c.tc : Thread nD τ).loc main_arg10))) := by
  refine (W11_arr m ρ c 6).trans ((Region1.value (V10 m ρ) c).trans ?_)
  show Cert.Spec.edgeMlp (F := Ideal) (W10 m ρ c (Proc.devRef .tc main_v13)) (W10 m ρ c (Proc.devRef .tc main_v14)) (W10 m ρ c (Proc.devRef .tc main_arg7)) (W10 m ρ c (Proc.devRef .tc main_v15)) (W10 m ρ c (Proc.devRef .tc main_arg9)) (W10 m ρ c (Proc.devRef .tc main_v16)) = _
  rw [W10_v13, W10_v14, W10_arg7, W10_v15, W10_arg9, W10_v16, first_round m ρ c h,
    W5_of_ne m ρ c main_v3 (by decide), W4_v3, W5_of_ne m ρ c main_v1 (by decide), W4_v1,
    W5_of_ne m ρ c main_arg7 (by decide), W4_arg7, W5_of_ne m ρ c main_arg8 (by decide), W4_arg8,
    W5_of_ne m ρ c main_arg9 (by decide), W4_arg9, W5_of_ne m ρ c main_arg10 (by decide), W4_arg10,
    Take.takeFill_dst _ _ h, Take.takeFill_src _ _ h]

/-- The result array at the last boundary is the encoder of the launch contents of the arguments. -/
theorem result_eq (c : Dev nD) (h : Take.EdgesInRange (m ((c.tc : Thread nD τ).loc main_arg1))) :
    W16 (F := Ideal) m ρ c (Proc.devRef .tc main_v43) =
      Cert.Spec.encoder (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [W16_v43, second_messages m ρ c h,
    W11_of_ne m ρ c main_v3 (by decide), W10_v3, W5_of_ne m ρ c main_v3 (by decide), W4_v3, Take.dstK_eq,
    W11_of_ne m ρ c main_arg2 (by decide), W10_arg2, W5_of_ne m ρ c main_arg2 (by decide), W4_arg2,
    W11_of_ne m ρ c main_arg11 (by decide), W10_arg11, W5_of_ne m ρ c main_arg11 (by decide), W4_arg11,
    W11_of_ne m ρ c main_arg12 (by decide), W10_arg12, W5_of_ne m ρ c main_arg12 (by decide), W4_arg12,
    W11_of_ne m ρ c main_arg13 (by decide), W10_arg13, W5_of_ne m ρ c main_arg13 (by decide), W4_arg13,
    W11_of_ne m ρ c main_arg14 (by decide), W10_arg14, W5_of_ne m ρ c main_arg14 (by decide), W4_arg14]
  rfl

end Value

end Cert.KernelIdeal.ResultValue

end
-- ==== Proof.RefValue.lean ====
/-
  The reference computes the encoder: its run's result, one long term of the arguments, is the
  function `Cert.Spec.encoder` of them, read off operation by operation (the two are the same tree of
  operations; the encoder only names its sub-trees).
-/
import proofs.«409885_j70153995812874_1_alg».proof.Proof.Gen.ReferenceIdeal.Run
import proofs.«409885_j70153995812874_1_alg».proof.Proof.Spec

noncomputable section

namespace Cert.RefValue

open Cert.ReferenceIdeal Cert.ReferenceIdeal.Gen Idealize.ShloMosaic Idealize.ShloMosaic.TcCoe Idealize.SL.Sem

variable {F : FTy → Type} [FloatOps F]

set_option maxRecDepth 8192 in
/-- The reference's result is the encoder of its arguments. -/
theorem res_eq (m : (ℓ : Loc nD τ sig) → Buf (Elt F) ℓ) (c : Dev nD) :
    Cert.ReferenceIdeal.Value.res_out0 (F := F) m c =
      Cert.Spec.encoder (F := F) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
        (m ((c.tc : Thread nD τ).loc main_arg8)) (m ((c.tc : Thread nD τ).loc main_arg9)) (m ((c.tc : Thread nD τ).loc main_arg10))
        (m ((c.tc : Thread nD τ).loc main_arg11)) (m ((c.tc : Thread nD τ).loc main_arg12)) (m ((c.tc : Thread nD τ).loc main_arg13))
        (m ((c.tc : Thread nD τ).loc main_arg14)) := by
  show Cert.ReferenceIdeal.Value.res_main_v81 (F := F) m c = _
  unfold Cert.ReferenceIdeal.Value.res_main_v81 Cert.Spec.encoder Cert.Spec.head Cert.Spec.layer Cert.Spec.aggregate
    Cert.Spec.edgeMlp Cert.Spec.rowsOf Cert.Spec.wrapIdx Cert.Spec.biasRow Cert.Spec.srcOf Cert.Spec.dstOf
  rfl

end Cert.RefValue

end
-- ==== Proof.lean ====
/-
  The graph encoder kernel against its reference, over the extended reals.

  Both programs compute two rounds of message passing and a mean pool (`Cert.Spec.encoder`).  They differ in two
  places only.  The kernel program gathers node rows with a fill-mode take, which replaces a row by a
  not-a-number fill when its index is out of range, where the reference's indexing clamps; the precondition
  says every entry of the edge list is a node index (0 … 39999), so no row is replaced.  And the kernel program
  computes each round's message perceptron, relu([x_dst | x_src] · w1 + b1) · w2 + b2, in a pallas_call over
  128 blocks of 5000 edges with its operands narrowed to a shorter float format, which is the identity on exact
  values: block by block the call writes the rows the host's perceptron would.
  Everything else — the slices of the edge list, the scatter-adds, the rectifiers, the pool and the output
  perceptron — is the same host operation in both programs, applied to equal values.
-/
import proofs.«409885_j70153995812874_1_alg».proof.Defs
import proofs.«409885_j70153995812874_1_alg».proof.Proof.Gen.Kernel.Frame
import proofs.«409885_j70153995812874_1_alg».proof.Proof.Gen.KernelIdeal.Frame
import proofs.«409885_j70153995812874_1_alg».proof.Proof.Gen.ReferenceIdeal.Run
import proofs.«409885_j70153995812874_1_alg».proof.Proof.KernelRun
import proofs.«409885_j70153995812874_1_alg».proof.Proof.KernelValue
import proofs.«409885_j70153995812874_1_alg».proof.Proof.RefValue
import proofs.«409885_j70153995812874_1_alg».proof.Proof.TakeFill
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the encoder of the (agreeing) arguments in their result arrays. -/
theorem algebraic : Cert.algebraic_KernelIdeal_ReferenceIdeal := by
  intro m ρ m' ρ' hpre hagree
  refine ⟨fun c => Cert.Spec.encoder (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.ResultValue.result_eq m ρ c
          (Cert.KernelIdeal.Take.edgesInRange_of_pre _ _ _ _ _ _ _ _ _ _ _ _ _ _ _ (hpre c))), (h c).2⟩)
      (Cert.KernelIdeal.RunResult.run_result m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8, a9, a10, a11, a12, a13, a14⟩ := hagree c
    exact (Cert.RefValue.res_eq m' c).trans (by rw [a0, a1, a2, a3, a4, a5, a6, a7, a8, a9, a10, a11, a12, a13, a14])

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
